-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S16384 : Shape := ⟨1, ![16384]⟩
abbrev S8x1024x1024 : Shape := ⟨3, ![8, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16384 : S_.BroadcastsInDim S16384 (![] : Fin 0 → Fin S16384.rank)
  reducesTo_S16384_S_d0 : S16384.ReducesTo [0] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_arg1 : IVec S16384 32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg1 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v18 main_v21
  let main_c_8 : IVec S_ 32 := constantI S_ 32 8#32
  let main_v23 : IVec S16384 32 := broadcastInDim S16384 ![] bcast_S_S16384 main_c_8
  let main_v24 : IVec S16384 1 := cmpi .slt main_arg1 main_v23
  let main_c_9 : IVec S_ 1 := constantI S_ 1 1#1
  let main_v25 : IVec S_ 1 := (fun x v => Host.reduce IntOp.andi x v reducesTo_S16384_S_d0 h_S_) main_v24 main_c_9
  let main_v26 : IVec S_ 1 := andi main_v22 main_v25
  main_v26

def fn {F : FTy → Type} [FloatOps F] (main_arg0 : FVec F S8192x1024 .f32) (main_arg1 : IVec S16384 32) (main_arg2 : FVec F S16384 .f32) (main_arg3 : FVec F S8x1024x1024 .f32) (main_arg4 : FVec F S8x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S8x1024x1024 .f32 := Host.absf main_arg3
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg4
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg1 main_v13 main_v16
-- ==== Kernel.lean ====
abbrev S8192x1024 : Shape := ⟨2, ![8192, 1024]⟩
abbrev S16384 : Shape := ⟨1, ![16384]⟩
abbrev S8x1024x1024 : Shape := ⟨3, ![8, 1024, 1024]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S512x1024 : Shape := ⟨2, ![512, 1024]⟩
abbrev S512x8 : Shape := ⟨2, ![512, 8]⟩
abbrev S1x1024x1024 : Shape := ⟨3, ![1, 1024, 1024]⟩
abbrev S1024x1024 : Shape := ⟨2, ![1024, 1024]⟩
abbrev S512x1 : Shape := ⟨2, ![512, 1]⟩

abbrev nBuf : Space → Nat
  | .hbm => 22
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S16384, .i32⟩
  | .hbm, ⟨2, _⟩ => ⟨S16384, .f32⟩
  | .hbm, ⟨3, _⟩ => ⟨S8x1024x1024, .f32⟩
  | .hbm, ⟨4, _⟩ => ⟨S8x1024x1024, .f32⟩
  | .hbm, ⟨5, _⟩ => ⟨S8192x2, .i32⟩
  | .hbm, ⟨6, _⟩ => ⟨S8192x2, .f32⟩
  | .hbm, ⟨7, _⟩ => ⟨S8192x2x1, .i32⟩
  | .hbm, ⟨8, _⟩ => ⟨S1x1x8, .i32⟩
  | .hbm, ⟨9, _⟩ => ⟨S8192x2x8, .i32⟩
  | .hbm, ⟨10, _⟩ => ⟨S8192x2x8, .i32⟩
  | .hbm, ⟨11, _⟩ => ⟨S8192x2x8, .i1⟩
  | .hbm, ⟨12, _⟩ => ⟨S8192x2x8, .f32⟩
  | .hbm, ⟨13, _⟩ => ⟨S8192x2x1, .f32⟩
  | .hbm, ⟨14, _⟩ => ⟨S8192x2x8, .f32⟩
  | .hbm, ⟨15, _⟩ => ⟨S8192x2x8, .f32⟩
  | .hbm, ⟨16, _⟩ => ⟨S_, .f32⟩
  | .hbm, ⟨17, _⟩ => ⟨S8192x8, .f32⟩
  | .hbm, ⟨18, _⟩ => ⟨S8192x1024, .bf16⟩
  | .hbm, ⟨19, _⟩ => ⟨S8x1024x1024, .bf16⟩
  | .hbm, ⟨20, _⟩ => ⟨S8x1024x1024, .bf16⟩
  | .hbm, ⟨21, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x1024, .bf16⟩
  | .local _ .vmem, ⟨3, _⟩ => ⟨S8x1024x1024, .bf16⟩
  | .local _ .vmem, ⟨4, _⟩ => ⟨S512x8, .f32⟩
  | .local _ .vmem, ⟨5, _⟩ => ⟨S512x8, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S8192x2 : S16384.ShapeCasts S8192x2
  bcast_S8192x2_S8192x2x1_0_1 : S8192x2.BroadcastsInDim S8192x2x1 (![0, 1] : Fin 2 → Fin S8192x2x1.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  reducesTo_S8192x2x8_S8192x8_d1 : S8192x2x8.ReducesTo [1] S8192x8
  h_S_ : 0 < S_.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S512x8_S512x1_0_0 : ∀ a, (![0, 0] : Fin 2 → Nat) a + S512x1.size a ≤ S512x8.size a
  h_S512x1 : 0 < S512x1.numel
  shapeCasts_S512x1_S512x1 : S512x1.ShapeCasts S512x1
  broadcasts_S512x1_S512x1024 : S512x1.Broadcasts S512x1024
  inb_S8x1024x1024_S1x1024x1024_1_0_0 : ∀ a, (![1, 0, 0] : Fin 3 → Nat) a + S1x1024x1024.size a ≤ S8x1024x1024.size a
  inb_S512x8_S512x1_0_1 : ∀ a, (![0, 1] : Fin 2 → Nat) a + S512x1.size a ≤ S512x8.size a
  inb_S8x1024x1024_S1x1024x1024_2_0_0 : ∀ a, (![2, 0, 0] : Fin 3 → Nat) a + S1x1024x1024.size a ≤ S8x1024x1024.size a
  inb_S512x8_S512x1_0_2 : ∀ a, (![0, 2] : Fin 2 → Nat) a + S512x1.size a ≤ S512x8.size a
  inb_S8x1024x1024_S1x1024x1024_3_0_0 : ∀ a, (![3, 0, 0] : Fin 3 → Nat) a + S1x1024x1024.size a ≤ S8x1024x1024.size a
  inb_S512x8_S512x1_0_3 : ∀ a, (![0, 3] : Fin 2 → Nat) a + S512x1.size a ≤ S512x8.size a
  inb_S8x1024x1024_S1x1024x1024_4_0_0 : ∀ a, (![4, 0, 0] : Fin 3 → Nat) a + S1x1024x1024.size a ≤ S8x1024x1024.size a
  inb_S512x8_S512x1_0_4 : ∀ a, (![0, 4] : Fin 2 → Nat) a + S512x1.size a ≤ S512x8.size a
  inb_S8x1024x1024_S1x1024x1024_5_0_0 : ∀ a, (![5, 0, 0] : Fin 3 → Nat) a + S1x1024x1024.size a ≤ S8x1024x1024.size a
  inb_S512x8_S512x1_0_5 : ∀ a, (![0, 5] : Fin 2 → Nat) a + S512x1.size a ≤ S512x8.size a
  inb_S8x1024x1024_S1x1024x1024_6_0_0 : ∀ a, (![6, 0, 0] : Fin 3 → Nat) a + S1x1024x1024.size a ≤ S8x1024x1024.size a
  inb_S512x8_S512x1_0_6 : ∀ a, (![0, 6] : Fin 2 → Nat) a + S512x1.size a ≤ S512x8.size a
  inb_S8x1024x1024_S1x1024x1024_7_0_0 : ∀ a, (![7, 0, 0] : Fin 3 → Nat) a + S1x1024x1024.size a ≤ S8x1024x1024.size a
  inb_S512x8_S512x1_0_7 : ∀ a, (![0, 7] : Fin 2 → Nat) a + S512x1.size a ≤ S512x8.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x1024.size a ≤ S8x1024x1024.size a
  hwx0_1 : ∀ i : grid0.Coords, EltTy.bits .bf16 = 32 ∨ (Rect.block (s := S8x1024x1024) S8x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024x1024.size a ≤ S8x1024x1024.size a
  hwx0_2 : ∀ i : grid0.Coords, EltTy.bits .bf16 = 32 ∨ (Rect.block (s := S8x1024x1024) S8x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S8192x8.size a
  hwx0_3 : ∀ i : grid0.Coords, EltTy.bits .f32 = 32 ∨ (Rect.block (s := S8192x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v7) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S16384 : Shape := ⟨1, ![16384]⟩
abbrev S8x1024x1024 : Shape := ⟨3, ![8, 1024, 1024]⟩
abbrev S8x1024x8192 : Shape := ⟨3, ![8, 1024, 8192]⟩
abbrev S8x8192x1024 : Shape := ⟨3, ![8, 8192, 1024]⟩
abbrev S_ : Shape := ⟨0, ![]⟩
abbrev S8192x2 : Shape := ⟨2, ![8192, 2]⟩
abbrev S8192x8x1024 : Shape := ⟨3, ![8192, 8, 1024]⟩
abbrev S8192x2x1 : Shape := ⟨3, ![8192, 2, 1]⟩
abbrev S1 : Shape := ⟨1, ![1]⟩
abbrev S1x1x1 : Shape := ⟨3, ![1, 1, 1]⟩
abbrev S8192x2x1024 : Shape := ⟨3, ![8192, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16384, .i32⟩
  | .hbm, ⟨2, _⟩ => ⟨S16384, .f32⟩
  | .hbm, ⟨3, _⟩ => ⟨S8x1024x1024, .f32⟩
  | .hbm, ⟨4, _⟩ => ⟨S8x1024x1024, .f32⟩
  | .hbm, ⟨5, _⟩ => ⟨S8x1024x8192, .f32⟩
  | .hbm, ⟨6, _⟩ => ⟨S8x8192x1024, .f32⟩
  | .hbm, ⟨7, _⟩ => ⟨S_, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S_, .f32⟩
  | .hbm, ⟨12, _⟩ => ⟨S8x8192x1024, .f32⟩
  | .hbm, ⟨13, _⟩ => ⟨S8x8192x1024, .f32⟩
  | .hbm, ⟨14, _⟩ => ⟨S8192x2, .i32⟩
  | .hbm, ⟨15, _⟩ => ⟨S8192x2, .f32⟩
  | .hbm, ⟨16, _⟩ => ⟨S8192x8x1024, .f32⟩
  | .hbm, ⟨17, _⟩ => ⟨S8192x2x1, .i32⟩
  | .hbm, ⟨18, _⟩ => ⟨S_, .i32⟩
  | .hbm, ⟨19, _⟩ => ⟨S8192x2x1, .i32⟩
  | .hbm, ⟨20, _⟩ => ⟨S8192x2x1, .i1⟩
  | .hbm, ⟨21, _⟩ => ⟨S_, .i32⟩
  | .hbm, ⟨22, _⟩ => ⟨S8192x2x1, .i32⟩
  | .hbm, ⟨23, _⟩ => ⟨S8192x2x1, .i32⟩
  | .hbm, ⟨24, _⟩ => ⟨S8192x2x1, .i32⟩
  | .hbm, ⟨25, _⟩ => ⟨S1, .i32⟩
  | .hbm, ⟨26, _⟩ => ⟨S_, .i32⟩
  | .hbm, ⟨27, _⟩ => ⟨S8192x2x1, .i32⟩
  | .hbm, ⟨28, _⟩ => ⟨S8192x2x1, .i1⟩
  | .hbm, ⟨29, _⟩ => ⟨S1x1x1, .i32⟩
  | .hbm, ⟨30, _⟩ => ⟨S8192x2x1, .i32⟩
  | .hbm, ⟨31, _⟩ => ⟨S8192x2x1, .i1⟩
  | .hbm, ⟨32, _⟩ => ⟨S8192x2x1, .i1⟩
  | .hbm, ⟨33, _⟩ => ⟨S_, .i1⟩
  | .hbm, ⟨34, _⟩ => ⟨S8192x2, .i1⟩
  | .hbm, ⟨35, _⟩ => ⟨S8192x2x1024, .f32⟩
  | .hbm, ⟨36, _⟩ => ⟨S8192x2x1024, .i1⟩
  | .hbm, ⟨37, _⟩ => ⟨S_, .f32⟩
  | .hbm, ⟨38, _⟩ => ⟨S8192x2x1024, .f32⟩
  | .hbm, ⟨39, _⟩ => ⟨S8192x2x1024, .f32⟩
  | .hbm, ⟨40, _⟩ => ⟨S8192x2x1, .f32⟩
  | .hbm, ⟨41, _⟩ => ⟨S8192x2x1024, .f32⟩
  | .hbm, ⟨42, _⟩ => ⟨S8192x2x1024, .f32⟩
  | .hbm, ⟨43, _⟩ => ⟨S_, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_call1_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_c_1 : Ref sig .tc := ⟨.hbm, 25, rfl⟩
abbrev main_call2_c_2 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_c_3 : Ref sig .tc := ⟨.hbm, 33, rfl⟩
abbrev main_call2_v11 : Ref sig .tc := ⟨.hbm, 34, rfl⟩
abbrev main_call2_v12 : Ref sig .tc := ⟨.hbm, 35, rfl⟩
abbrev main_call2_v13 : Ref sig .tc := ⟨.hbm, 36, rfl⟩
abbrev main_call2_cst : Ref sig .tc := ⟨.hbm, 37, rfl⟩
abbrev main_call2_v14 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩

abbrev nD : Nat := 1
abbrev τ : Topo := Topo.v7x

variable {F : FTy → Type} [FloatOps F]

class Facts₀ : Prop where
  transposes_S8x1024x8192_S8x8192x1024_0_2_1 : S8x1024x8192.Transposes [0, 2, 1] S8x8192x1024
  bcast_S_S8x8192x1024 : S_.BroadcastsInDim S8x8192x1024 (![] : Fin 0 → Fin S8x8192x1024.rank)
  shapeCasts_S16384_S8192x2 : S16384.ShapeCasts S8192x2
  transposes_S8x8192x1024_S8192x8x1024_1_0_2 : S8x8192x1024.Transposes [1, 0, 2] S8192x8x1024
  bcast_S8192x2_S8192x2x1_0_1 : S8192x2.BroadcastsInDim S8192x2x1 (![0, 1] : Fin 2 → Fin S8192x2x1.rank)
  bcast_S_S8192x2x1 : S_.BroadcastsInDim S8192x2x1 (![] : Fin 0 → Fin S8192x2x1.rank)
  bcast_S1_S1x1x1_2 : S1.BroadcastsInDim S1x1x1 (![2] : Fin 1 → Fin S1x1x1.rank)
  bcast_S1x1x1_S8192x2x1_0_1_2 : S1x1x1.BroadcastsInDim S8192x2x1 (![0, 1, 2] : Fin 3 → Fin S8192x2x1.rank)
  reducesTo_S8192x2x1_S8192x2_d2 : S8192x2x1.ReducesTo [2] S8192x2
  h_S_ : 0 < S_.numel
  bcast_S8192x2_S8192x2x1024_0_1 : S8192x2.BroadcastsInDim S8192x2x1024 (![0, 1] : Fin 2 → Fin S8192x2x1024.rank)
  bcast_S_S8192x2x1024 : S_.BroadcastsInDim S8192x2x1024 (![] : Fin 0 → Fin S8192x2x1024.rank)
  bcast_S8192x2x1_S8192x2x1024_0_1_2 : S8192x2x1.BroadcastsInDim S8192x2x1024 (![0, 1, 2] : Fin 3 → Fin S8192x2x1024.rank)
  reducesTo_S8192x2x1024_S8192x1024_d1 : S8192x2x1024.ReducesTo [1] S8192x1024
  dot_S8x1024x1024_S8192x1024_S8x1024x8192_2_1_01_0_n_n_wf : DotDims.WF S8x1024x1024 S8192x1024 S8x1024x8192 [2] [1] [0, 1] [0] [] []
  dot_S8x8192x1024_S8x1024x1024_S8x8192x1024_2_2_1_1_0_0_wf : DotDims.WF S8x8192x1024 S8x1024x1024 S8x8192x1024 [2] [2] [1] [1] [0] [0]
  gather_S8192x8x1024_S8192x2x1_S8192x2x1024_2_1_0_0_1_2_111024_wf : GatherDims.WF S8192x8x1024 S8192x2x1 S8192x2x1024 [2] [1] [0] [1] [0] 2 ![1, 1, 1024]

variable [Facts₀]

def dot_S8x1024x1024_S8192x1024_S8x1024x8192_2_1_01_0_n_n : DotDims S8x1024x1024 S8192x1024 S8x1024x8192 where
  lhsContracting := [2]
  rhsContracting := [1]
  lhsNonContracting := [0, 1]
  rhsNonContracting := [0]
  lhsBatch := []
  rhsBatch := []
  wf := dot_S8x1024x1024_S8192x1024_S8x1024x8192_2_1_01_0_n_n_wf
def dot_S8x8192x1024_S8x1024x1024_S8x8192x1024_2_2_1_1_0_0 : DotDims S8x8192x1024 S8x1024x1024 S8x8192x1024 where
  lhsContracting := [2]
  rhsContracting := [2]
  lhsNonContracting := [1]
  rhsNonContracting := [1]
  lhsBatch := [0]
  rhsBatch := [0]
  wf := dot_S8x8192x1024_S8x1024x1024_S8x8192x1024_2_2_1_1_0_0_wf
def gather_S8192x8x1024_S8192x2x1_S8192x2x1024_2_1_0_0_1_2_111024 : GatherDims S8192x8x1024 S8192x2x1 S8192x2x1024 where
  offsetDims := [2]
  collapsedSliceDims := [1]
  operandBatchingDims := [0]
  startIndicesBatchingDims := [0]
  startIndexMap := [1]
  indexVectorDim := 2
  sliceSizes := ![1, 1, 1024]
  wf := gather_S8192x8x1024_S8192x2x1_S8192x2x1024_2_1_0_0_1_2_111024_wf

class Facts : Prop extends Facts₀ where

variable [Facts]
-- ==== Proof.Spec.lean ====
/-
  The mathematics of the mixture-of-experts layer, over literal shapes and the extended reals; no program is imported here.

  For a token `t`, an expert `e` and an output unit `p`:
    hidden e t o  = max (∑ d, x[t,d] · W1[e,o,d]) 0          (first linear map of expert e, then relu)
    expertOut e t p = max (∑ o, hidden e t o · W2[e,p,o]) 0    (second linear map, then relu)
  Token `t` has two routing slots, the flat positions 2t and 2t+1 of the index and weight vectors.
  The kernel weighs EVERY expert's output by a dense coefficient — coeff t e = 0 + ∑ₖ [idx(2t+k) = e] · w(2t+k) — and adds the eight
  products from zero, left to right (`kernelAt`). The reference picks, per slot, the output of the expert the slot names and adds the two
  weighted picks (`refAt`). `blockAt` is the kernel's sum for one 512-token block, over the block's own rows.
-/
import Idealize.ShloMosaic.PureOps.Ideal
import Idealize.ShloMosaic.Lib.ValueIdx

noncomputable section

namespace Cert.MoE

open Idealize.ShloMosaic Idealize.ShloMosaic.ValueIdx

/-- Tokens × hidden units: the activations and the result. -/
abbrev STok : Shape := ⟨2, ![8192, 1024]⟩
/-- The flat routing vectors: two slots per token. -/
abbrev SRoute : Shape := ⟨1, ![16384]⟩
/-- Experts × output units × input units: one weight matrix per expert, stored [out, in]. -/
abbrev SWt : Shape := ⟨3, ![8, 1024, 1024]⟩
/-- One block of 512 tokens. -/
abbrev SBlk : Shape := ⟨2, ![512, 1024]⟩
/-- A block's rows of the dense coefficient matrix. -/
abbrev SBlkCoef : Shape := ⟨2, ![512, 8]⟩

/-- Hidden unit `o` of expert `e` at token `t`. -/
def hidden (x : STok.Idx → EReal) (W1 : SWt.Idx → EReal) (e : Fin 8) (t : Fin 8192) (o : Fin 1024) : EReal :=
  max (∑ d : Fin 1024, x (ix2 t d) * W1 (ix3 e o d)) 0

/-- Output unit `p` of expert `e` at token `t`. -/
def expertOut (x : STok.Idx → EReal) (W1 W2 : SWt.Idx → EReal) (e : Fin 8) (t : Fin 8192) (p : Fin 1024) : EReal :=
  max (∑ o : Fin 1024, hidden x W1 e t o * W2 (ix3 e p o)) 0

/-- Routing slot `k` of token `t`: flat position 2t + k. -/
def slot (t : Fin 8192) (k : Fin 2) : Fin 16384 := ⟨2 * t.val + k.val, by omega⟩

/-- The one-hot entry of an index word at expert `e`: one where the word IS `e`, else zero. -/
def hot (b : BitVec 32) (e : Fin 8) : EReal := if b = BitVec.ofNat 32 e.val then 1 else 0

/-- The dense routing coefficient of expert `e` at token `t`: the weights of the slots that name `e`, added from zero. -/
def coeff (idx : SRoute.Idx → BitVec 32) (w : SRoute.Idx → EReal) (t : Fin 8192) (e : Fin 8) : EReal :=
  0 + ∑ k : Fin 2, hot (idx (ix1 (slot t k))) e * w (ix1 (slot t k))

/-- The expert an index word names when read signed and clamped into [0, 7], as a gather clamps its start index. -/
def expertOf (b : BitVec 32) : Fin 8 := ⟨min b.toInt.toNat 7, by omega⟩

/-- THE KERNEL's value at (t, p): all eight experts, each weighed by its dense coefficient, added from zero left to right. -/
def kernelAt (x : STok.Idx → EReal) (idx : SRoute.Idx → BitVec 32) (w : SRoute.Idx → EReal) (W1 W2 : SWt.Idx → EReal)
    (t : Fin 8192) (p : Fin 1024) : EReal :=
  0 + expertOut x W1 W2 0 t p * coeff idx w t 0 + expertOut x W1 W2 1 t p * coeff idx w t 1
    + expertOut x W1 W2 2 t p * coeff idx w t 2 + expertOut x W1 W2 3 t p * coeff idx w t 3
    + expertOut x W1 W2 4 t p * coeff idx w t 4 + expertOut x W1 W2 5 t p * coeff idx w t 5
    + expertOut x W1 W2 6 t p * coeff idx w t 6 + expertOut x W1 W2 7 t p * coeff idx w t 7

/-- THE REFERENCE's value at (t, p): per slot the named expert's output times the slot's weight, the two added from zero. -/
def refAt (x : STok.Idx → EReal) (idx : SRoute.Idx → BitVec 32) (w : SRoute.Idx → EReal) (W1 W2 : SWt.Idx → EReal)
    (t : Fin 8192) (p : Fin 1024) : EReal :=
  0 + ∑ k : Fin 2, expertOut x W1 W2 (expertOf (idx (ix1 (slot t k)))) t p * w (ix1 (slot t k))

/-- Expert `e`'s output at row `r`, unit `q` of ONE block: the same two maps over the block's own rows. -/
def blockExpert (xb : SBlk.Idx → EReal) (A B : SWt.Idx → EReal) (e : Fin 8) (r : Fin 512) (q : Fin 1024) : EReal :=
  max (∑ o : Fin 1024, max (∑ d : Fin 1024, xb (ix2 r d) * A (ix3 e o d)) 0 * B (ix3 e q o)) 0

/-- What the kernel body leaves at row `r`, unit `q` of its output block, from the block of activations `xb`, the two whole
    weight arrays and the block's rows `cb` of the coefficient matrix. -/
def blockAt (xb : SBlk.Idx → EReal) (A B : SWt.Idx → EReal) (cb : SBlkCoef.Idx → EReal) (r : Fin 512) (q : Fin 1024) : EReal :=
  0 + blockExpert xb A B 0 r q * cb (ix2 r 0) + blockExpert xb A B 1 r q * cb (ix2 r 1)
    + blockExpert xb A B 2 r q * cb (ix2 r 2) + blockExpert xb A B 3 r q * cb (ix2 r 3)
    + blockExpert xb A B 4 r q * cb (ix2 r 4) + blockExpert xb A B 5 r q * cb (ix2 r 5)
    + blockExpert xb A B 6 r q * cb (ix2 r 6) + blockExpert xb A B 7 r q * cb (ix2 r 7)

end Cert.MoE

end
-- ==== Proof.KernelHost.lean ====
/-
  What the kernel's launch finds in the arrays its windows stage: the three format changes are the identity on the extended reals,
  and the coefficient matrix is the one-hot of the routing indices times the routing weights, summed over the two slots.
-/
import proofs.«429594_j19748259627301_1_alg».proof.Proof.Gen.KernelIdeal.Frame
import proofs.«429594_j19748259627301_1_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.HostValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The three format changes -/

theorem V_x (c : Dev nD) : (V m c main_v7 : S8192x1024.Idx → EReal) = m ((c : Thread nD τ).loc main_arg0) := by
  dsimp only [Gen.V]
  simp only [Gen.hostOps0, Gen.hostOps0_1, Gen.hostOps0_2, List.flatten_cons, List.flatten_nil, List.append_nil, List.cons_append,
    List.nil_append]
  after_results
  rfl

theorem V_W1 (c : Dev nD) : (V m c main_v8 : S8x1024x1024.Idx → EReal) = m ((c : Thread nD τ).loc main_arg3) := by
  dsimp only [Gen.V]
  simp only [Gen.hostOps0, Gen.hostOps0_1, Gen.hostOps0_2, List.flatten_cons, List.flatten_nil, List.append_nil, List.cons_append,
    List.nil_append]
  after_results
  rfl

theorem V_W2 (c : Dev nD) : (V m c main_v9 : S8x1024x1024.Idx → EReal) = m ((c : Thread nD τ).loc main_arg4) := by
  dsimp only [Gen.V]
  simp only [Gen.hostOps0, Gen.hostOps0_1, Gen.hostOps0_2, List.flatten_cons, List.flatten_nil, List.append_nil, List.cons_append,
    List.nil_append]
  after_results
  rfl

/-! ## The coefficient matrix -/

/-- A flat routing vector, cut into [8192, 2] and repeated along a third axis of eight: entry (t, k, e) is the vector's
    entry at slot k of token t, whatever e. -/
private def routed {α : Type} (v : S16384.Idx → α) : S8192x2x8.Idx → α :=
  broadcastInDim S8192x2x8 ![0, 1, 2] bcast_S8192x2x1_S8192x2x8_0_1_2
    (broadcastInDim S8192x2x1 ![0, 1] bcast_S8192x2_S8192x2x1_0_1 (shapeCast S8192x2 v shapeCasts_S16384_S8192x2))

/-- The expert numbers 0 … 7 along the third axis, repeated over tokens and slots. -/
private def experts : S8192x2x8.Idx → BitVec 32 :=
  broadcastInDim S8192x2x8 ![0, 1, 2] bcast_S1x1x8_S8192x2x8_0_1_2 (iotaInDim S1x1x8 32 2)

/-- The coefficient matrix as the host operations compose it from the two routing vectors. -/
private def hostCoeff (x1 : S16384.Idx → BitVec 32) (x2 : S16384.Idx → EReal) : S8192x8.Idx → EReal :=
  Host.reduceAdd (F := Ideal) (φ := .f32)
    (mulf (F := Ideal) (φ := .f32) (uitofp (F := Ideal) .f32 (cmpi .eq (routed x1) experts)) (routed x2))
    (constant (F := Ideal) S_ .f32 0x00000000#32) reducesTo_S8192x2x8_S8192x8_d1 h_S_

/-- The array the launch finds at the coefficient buffer is that composition of the two routing arguments. -/
private theorem V_coeff_term (c : Dev nD) :
    (V m c main_v6 : S8192x8.Idx → EReal)
      = hostCoeff (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append,
    List.nil_append]
  after_results
  rfl

/-- Entry (t, k, e) of the repeated vector is the flat entry at position 2t + k: the reshape keeps the row-major position. -/
private theorem routed_apply {α : Type} (v : S16384.Idx → α) (t : Fin 8192) (k : Fin 2) (e : Fin 8) :
    routed v (ix3 t k e) = v (ix1 (Cert.MoE.slot t k)) := by
  unfold routed
  refine (broadcastInDim_apply _ _ _ (ix3 t k e) (ix3 t k (0 : Fin 1)) fun a => ?_).trans ?_
  · match a with | ⟨0, _⟩ => rfl | ⟨1, _⟩ => rfl | ⟨2, _⟩ => rfl
  refine (broadcastInDim_apply _ _ _ (ix3 t k (0 : Fin 1)) (ix2 t k) fun a => ?_).trans ?_
  · match a with | ⟨0, _⟩ => rfl | ⟨1, _⟩ => rfl
  refine shapeCast_apply _ _ (ix2 t k) (ix1 (Cert.MoE.slot t k)) ?_
  rw [Shape.rowMajor_val_one, Shape.rowMajor_val_two]
  show 2 * t.val + k.val = t.val * 2 + k.val
  omega

/-- Entry (t, k, e) of the expert numbers is the word of e. -/
private theorem experts_apply (t : Fin 8192) (k : Fin 2) (e : Fin 8) : experts (ix3 t k e) = BitVec.ofNat 32 e.val := by
  unfold experts
  refine (broadcastInDim_apply _ _ _ (ix3 t k e) (ix3 (0 : Fin 1) (0 : Fin 1) e) fun a => ?_).trans ?_
  · match a with | ⟨0, _⟩ => rfl | ⟨1, _⟩ => rfl | ⟨2, _⟩ => rfl
  rfl

/-- The equality test of two words, read as an unsigned number, is one where they agree and zero elsewhere. -/
private theorem uitofp_cmpi_eq (a b : BitVec 32) :
    (((IntOp.cmpi .eq a b).toNat : ℝ) : EReal) = if a = b then 1 else 0 := by
  by_cases h : a = b
  · simp [IntOp.cmpi, h]
  · simp [IntOp.cmpi, h]

/-- One term of the host's sum: at (t, k, e) the one-hot entry of slot k's index word at e, times slot k's weight. -/
private theorem summand_apply (x1 : S16384.Idx → BitVec 32) (x2 : S16384.Idx → EReal) (t : Fin 8192) (k : Fin 2) (e : Fin 8) :
    mulf (F := Ideal) (φ := .f32) (uitofp (F := Ideal) .f32 (cmpi .eq (routed x1) experts)) (routed x2) (ix3 t k e)
      = Cert.MoE.hot (x1 (ix1 (Cert.MoE.slot t k))) e * x2 (ix1 (Cert.MoE.slot t k)) := by
  rw [mulf_apply, routed_apply]
  refine congrArg (· * _) ?_
  show (((IntOp.cmpi .eq (routed x1 (ix3 t k e)) (experts (ix3 t k e))).toNat : ℝ) : EReal) = _
  rw [routed_apply, experts_apply, uitofp_cmpi_eq]
  rfl

/-- The host's coefficient at (t, e) is the specification's: zero, plus over the two slots the one-hot entry times the weight. -/
private theorem hostCoeff_apply (x1 : S16384.Idx → BitVec 32) (x2 : S16384.Idx → EReal) (t : Fin 8192) (e : Fin 8) :
    hostCoeff x1 x2 (ix2 t e) = Cert.MoE.coeff x1 x2 t e := by
  unfold hostCoeff Cert.MoE.coeff
  simp only [Host.reduceAdd, Ideal.hostReduceAdd_def]
  rw [Ideal.hostReduceAdd_single reducesTo_S8192x2x8_S8192x8_d1 (by decide)]
  refine congrArg₂ (· + ·) Ideal.ofBits_zero_f32 (Finset.sum_congr rfl fun k _ => ?_)
  refine Eq.trans (congrArg _ (funext fun a => Fin.ext ?_)) (summand_apply x1 x2 t k e)
  match a with | ⟨0, _⟩ => rfl | ⟨1, _⟩ => rfl | ⟨2, _⟩ => rfl

theorem V_coeff (c : Dev nD) (t : Fin 8192) (e : Fin 8) :
    (V m c main_v6 : S8192x8.Idx → EReal) (ix2 t e)
      = Cert.MoE.coeff (m ((c : Thread nD τ).loc main_arg1)) (m ((c : Thread nD τ).loc main_arg2)) t e := by
  rw [V_coeff_term]
  exact hostCoeff_apply _ _ t e

end Cert.KernelIdeal.HostValue

end
-- ==== Proof.KernelBody.lean ====
/-
  What the kernel body leaves in its output block, entry by entry: from the block of activations, the two whole weight arrays and
  the block's rows of the coefficient matrix, the eight experts' outputs weighed and added from zero.
-/
import proofs.«429594_j19748259627301_1_alg».proof.Proof.Gen.KernelIdeal.Value
import proofs.«429594_j19748259627301_1_alg».proof.Proof.Spec
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Cert.KernelIdeal.Value Idealize.ShloMosaic Idealize.ShloMosaic.TcCoe Idealize.ShloMosaic.ValueIdx

/-! ## The matrix product of the body at an entry

The product's record contracts axis 1 of its left operand with axis 0 of its right operand; the left operand's axis 0 is the
result's row and the right operand's axis 1 the result's column. -/

theorem lhs_dot_0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_dot_1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k

theorem rhs_dot_0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k

theorem rhs_dot_1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero block, at row `r` and column `q`: the sum over the contracted coordinate of the operands' products. -/
theorem matmul_at {φ₁ φ₂ : FTy} (lhs : FVec Ideal S512x1024 φ₁) (rhs : FVec Ideal S1024x1024 φ₂) (r : Fin 512) (q : Fin 1024) :
    matmul dot_S512x1024_S1024x1024_S512x1024_1_0_0_1_n_n none lhs rhs (constant S512x1024 .f32 0x00000000#32) (ix2 r q)
      = ∑ k : Fin 1024, lhs (ix2 r k) * rhs (ix2 k q) := by
  refine (Ideal.matmul_constant_zero_apply dot_S512x1024_S1024x1024_S512x1024_1_0_0_1_n_n none lhs rhs (ix2 r q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

variable {F : FTy → Type} [FloatOps F]

/-! ## One expert's block

The body computes each expert by the same operations: the activations times the transposed first weight slab, the maximum with
zero, the narrowing to the activations' format, that times the transposed second weight slab, the maximum with zero. -/

/-- One expert's output block, as the body's operations over the block of activations and the expert's two weight slabs. -/
def expertVec (v1 : FVec F S512x1024 .bf16) (a b : Vec F S1x1024x1024 .bf16) : FVec F S512x1024 .f32 :=
  maximumf
    (matmul dot_S512x1024_S1024x1024_S512x1024_1_0_0_1_n_n none
      (truncf .bf16
        (maximumf
          (matmul dot_S512x1024_S1024x1024_S512x1024_1_0_0_1_n_n none v1
            (transpose S1024x1024 [1, 0] (shapeCast S1024x1024 a shapeCasts_S1x1024x1024_S1024x1024) transposes_S1024x1024_p1_0_S1024x1024)
            (constant S512x1024 .f32 0x00000000#32))
          (broadcast S512x1024 (Scalar.ofBits .f32 0x00000000#32)))
        bitsLt_bf16_f32)
      (transpose S1024x1024 [1, 0] (shapeCast S1024x1024 b shapeCasts_S1x1024x1024_S1024x1024) transposes_S1024x1024_p1_0_S1024x1024)
      (constant S512x1024 .f32 0x00000000#32))
    (broadcast S512x1024 (Scalar.ofBits .f32 0x00000000#32))

theorem pay4_eq (v0 : Vec F S512x1024 .bf16) (a b : Vec F S1x1024x1024 .bf16) : k0_pay4 v0 a b = expertVec (k0_pay2 v0) a b := rfl
theorem pay6_eq (v1 : FVec F S512x1024 .bf16) (a b : Vec F S1x1024x1024 .bf16) : k0_pay6 v1 a b = expertVec v1 a b := rfl
theorem pay8_eq (v1 : FVec F S512x1024 .bf16) (a b : Vec F S1x1024x1024 .bf16) : k0_pay8 v1 a b = expertVec v1 a b := rfl
theorem pay10_eq (v1 : FVec F S512x1024 .bf16) (a b : Vec F S1x1024x1024 .bf16) : k0_pay10 v1 a b = expertVec v1 a b := rfl

/-- One expert's output at row `r`, unit `q`, over the extended reals: the two linear maps, each followed by the maximum with zero. -/
def expertAt (P : S512x1024.Idx → EReal) (A B : S1x1024x1024.Idx → EReal) (r : Fin 512) (q : Fin 1024) : EReal :=
  max (∑ o : Fin 1024, max (∑ d : Fin 1024, P (ix2 r d) * A (ix3 0 o d)) 0 * B (ix3 0 q o)) 0

/-- A weight slab cast to a matrix and transposed reads, at `(k, o)`, the slab at `(0, o, k)`. -/
theorem slabT_at {α : Type} (a : S1x1024x1024.Idx → α) (k o : Fin 1024) :
    transpose S1024x1024 [1, 0] (shapeCast S1024x1024 a shapeCasts_S1x1024x1024_S1024x1024) transposes_S1024x1024_p1_0_S1024x1024 (ix2 k o)
      = a (ix3 0 o k) :=
  (transpose_ix2_apply _ transposes_S1024x1024_p1_0_S1024x1024 k o).trans
    (shapeCast_1ab_ab_apply a shapeCasts_S1x1024x1024_S1024x1024 o k)

theorem expertVec_apply (v1 : FVec Ideal S512x1024 .bf16) (a b : Vec Ideal S1x1024x1024 .bf16) (r : Fin 512) (q : Fin 1024) :
    expertVec (F := Ideal) v1 a b (ix2 r q) = expertAt v1 a b r q := by
  unfold expertVec expertAt
  rw [maximumf_apply, broadcast_apply, matmul_at]
  show max _ (Ideal.ofBits .f32 0x00000000#32) = _
  rw [Ideal.ofBits_zero_f32]
  refine congrArg (fun s => max s (0 : EReal)) (Finset.sum_congr rfl fun o _ => ?_)
  rw [slabT_at, truncf_apply, maximumf_apply, broadcast_apply, matmul_at]
  show max _ (Ideal.ofBits .f32 0x00000000#32) * _ = _
  rw [Ideal.ofBits_zero_f32]
  refine congrArg (fun s => max s (0 : EReal) * b (ix3 0 q o)) (Finset.sum_congr rfl fun d _ => ?_)
  rw [slabT_at]

/-! ## The weighted sum

Each step of the body adds to the running block the previous expert's block times its coefficient column, the column broadcast along
the output units. -/

/-- A coefficient column broadcast along the output units. -/
def colB (c : Vec F S512x1 .f32) : FVec F S512x1024 .f32 :=
  broadcastTo S512x1024 (shapeCast S512x1 c shapeCasts_S512x1_S512x1) broadcasts_S512x1_S512x1024

/-- The broadcast column reads, at `(r, q)`, the column at row `r`. -/
theorem colB_apply (c : Vec Ideal S512x1 .f32) (r : Fin 512) (q : Fin 1024) : colB (F := Ideal) c (ix2 r q) = c (ix2 r (0 : Fin 1)) := by
  unfold colB
  rw [shapeCast_self]
  refine broadcastTo_apply c broadcasts_S512x1_S512x1024 (ix2 r q) (ix2 r (0 : Fin 1)) fun ax => ?_
  match ax with
  | ⟨0, _⟩ => show r.val = if (512 : Nat) = 1 then 0 else r.val; rw [if_neg (by decide)]
  | ⟨1, _⟩ => show 0 = if (1 : Nat) = 1 then 0 else q.val; rw [if_pos rfl]

theorem pay1_eq (acc prev : FVec F S512x1024 .f32) (c : Vec F S512x1 .f32) :
    k0_pay1 acc prev c = addf acc (mulf prev (colB c)) := rfl
theorem pay3_eq (v0 : Vec F S512x1024 .bf16) (a b : Vec F S1x1024x1024 .bf16) (c : Vec F S512x1 .f32) :
    k0_pay3 v0 a b c = addf (broadcast S512x1024 (Scalar.ofBits .f32 0x00000000#32)) (mulf (expertVec (k0_pay2 v0) a b) (colB c)) := rfl
theorem pay5_eq (v1 : FVec F S512x1024 .bf16) (acc prev : FVec F S512x1024 .f32) (c1 : Vec F S512x1 .f32) (a b : Vec F S1x1024x1024 .bf16) (c2 : Vec F S512x1 .f32) :
    k0_pay5 v1 acc prev c1 a b c2 = addf (addf acc (mulf prev (colB c1))) (mulf (expertVec v1 a b) (colB c2)) := rfl
theorem pay7_eq (v1 : FVec F S512x1024 .bf16) (acc prev : FVec F S512x1024 .f32) (c1 : Vec F S512x1 .f32) (a b : Vec F S1x1024x1024 .bf16) (c2 : Vec F S512x1 .f32) :
    k0_pay7 v1 acc prev c1 a b c2 = addf (addf acc (mulf prev (colB c1))) (mulf (expertVec v1 a b) (colB c2)) := rfl
theorem pay9_eq (v1 : FVec F S512x1024 .bf16) (acc prev : FVec F S512x1024 .f32) (c1 : Vec F S512x1 .f32) (a b : Vec F S1x1024x1024 .bf16) (c2 : Vec F S512x1 .f32) :
    k0_pay9 v1 acc prev c1 a b c2 = addf (addf acc (mulf prev (colB c1))) (mulf (expertVec v1 a b) (colB c2)) := rfl

/-- The activations' cast to their own shape is the identity. -/
theorem pay2_eq (v0 : Vec F S512x1024 .bf16) : k0_pay2 v0 = v0 := shapeCast_self v0 shapeCasts_S512x1024_S512x1024

/-- The last step at an entry: the running block plus the last expert's block times its coefficient. -/
theorem pay1_at (acc prev : FVec Ideal S512x1024 .f32) (c : Vec Ideal S512x1 .f32) (r : Fin 512) (q : Fin 1024) :
    k0_pay1 acc prev c (ix2 r q) = acc (ix2 r q) + prev (ix2 r q) * (c (ix2 r (0 : Fin 1)) : EReal) := by
  rw [pay1_eq, addf_apply, mulf_apply, colB_apply]

/-- The first step at an entry: zero plus the first expert's output times its coefficient. -/
theorem pay3_at (v0 : Vec Ideal S512x1024 .bf16) (a b : Vec Ideal S1x1024x1024 .bf16) (c : Vec Ideal S512x1 .f32) (r : Fin 512) (q : Fin 1024) :
    k0_pay3 v0 a b c (ix2 r q) = 0 + expertAt v0 a b r q * (c (ix2 r (0 : Fin 1)) : EReal) := by
  rw [pay3_eq, pay2_eq, addf_apply, mulf_apply, colB_apply, expertVec_apply, broadcast_apply]
  show Ideal.ofBits .f32 0x00000000#32 + _ = _
  rw [Ideal.ofBits_zero_f32]

/-- A middle step at an entry: the running block, plus the previous expert's block times its coefficient, plus this expert's
    output times its coefficient. -/
theorem pay5_at (v1 : FVec Ideal S512x1024 .bf16) (acc prev : FVec Ideal S512x1024 .f32) (c1 : Vec Ideal S512x1 .f32) (a b : Vec Ideal S1x1024x1024 .bf16) (c2 : Vec Ideal S512x1 .f32) (r : Fin 512) (q : Fin 1024) :
    k0_pay5 v1 acc prev c1 a b c2 (ix2 r q)
      = (acc (ix2 r q) + prev (ix2 r q) * (c1 (ix2 r (0 : Fin 1)) : EReal)) + expertAt v1 a b r q * (c2 (ix2 r (0 : Fin 1)) : EReal) := by
  rw [pay5_eq, addf_apply, addf_apply, mulf_apply, mulf_apply, colB_apply, colB_apply, expertVec_apply]
theorem pay7_at (v1 : FVec Ideal S512x1024 .bf16) (acc prev : FVec Ideal S512x1024 .f32) (c1 : Vec Ideal S512x1 .f32) (a b : Vec Ideal S1x1024x1024 .bf16) (c2 : Vec Ideal S512x1 .f32) (r : Fin 512) (q : Fin 1024) :
    k0_pay7 v1 acc prev c1 a b c2 (ix2 r q)
      = (acc (ix2 r q) + prev (ix2 r q) * (c1 (ix2 r (0 : Fin 1)) : EReal)) + expertAt v1 a b r q * (c2 (ix2 r (0 : Fin 1)) : EReal) := by
  rw [pay7_eq, addf_apply, addf_apply, mulf_apply, mulf_apply, colB_apply, colB_apply, expertVec_apply]
theorem pay9_at (v1 : FVec Ideal S512x1024 .bf16) (acc prev : FVec Ideal S512x1024 .f32) (c1 : Vec Ideal S512x1 .f32) (a b : Vec Ideal S1x1024x1024 .bf16) (c2 : Vec Ideal S512x1 .f32) (r : Fin 512) (q : Fin 1024) :
    k0_pay9 v1 acc prev c1 a b c2 (ix2 r q)
      = (acc (ix2 r q) + prev (ix2 r q) * (c1 (ix2 r (0 : Fin 1)) : EReal)) + expertAt v1 a b r q * (c2 (ix2 r (0 : Fin 1)) : EReal) := by
  rw [pay9_eq, addf_apply, addf_apply, mulf_apply, mulf_apply, colB_apply, colB_apply, expertVec_apply]

/-- The whole body at an entry, over arbitrary loads: zero, then the eight experts' outputs times their coefficients, added left
    to right. -/
theorem body_at (P : Vec Ideal S512x1024 .bf16) (A0 B0 A1 B1 A2 B2 A3 B3 A4 B4 A5 B5 A6 B6 A7 B7 : Vec Ideal S1x1024x1024 .bf16)
    (C0 C1 C2 C3 C4 C5 C6 C7 : Vec Ideal S512x1 .f32) (r : Fin 512) (q : Fin 1024) :
    k0_pay1 (k0_pay9 (k0_pay2 P) (k0_pay7 (k0_pay2 P) (k0_pay5 (k0_pay2 P) (k0_pay3 P A0 B0 C0) (k0_pay4 P A1 B1) C1 A2 B2 C2)
        (k0_pay6 (k0_pay2 P) A3 B3) C3 A4 B4 C4) (k0_pay8 (k0_pay2 P) A5 B5) C5 A6 B6 C6) (k0_pay10 (k0_pay2 P) A7 B7) C7 (ix2 r q)
      = 0 + expertAt P A0 B0 r q * (C0 (ix2 r (0 : Fin 1)) : EReal) + expertAt P A1 B1 r q * (C1 (ix2 r (0 : Fin 1)) : EReal)
          + expertAt P A2 B2 r q * (C2 (ix2 r (0 : Fin 1)) : EReal) + expertAt P A3 B3 r q * (C3 (ix2 r (0 : Fin 1)) : EReal)
          + expertAt P A4 B4 r q * (C4 (ix2 r (0 : Fin 1)) : EReal) + expertAt P A5 B5 r q * (C5 (ix2 r (0 : Fin 1)) : EReal)
          + expertAt P A6 B6 r q * (C6 (ix2 r (0 : Fin 1)) : EReal) + expertAt P A7 B7 r q * (C7 (ix2 r (0 : Fin 1)) : EReal) := by
  rw [pay1_at, pay9_at, pay7_at, pay5_at, pay3_at, pay4_eq, pay6_eq, pay8_eq, pay10_eq, pay2_eq]
  rw [expertVec_apply, expertVec_apply, expertVec_apply, expertVec_apply]

/-! ## The loads

The block of activations is loaded whole; expert `e`'s slab of a weight array is the array at first coordinate `e`; column `e` of the
coefficient block is the block at second coordinate `e`. -/

theorem zero2 : (![0, 0] : Fin 2 → Nat) = fun _ => 0 := funext fun a => by fin_cases a <;> rfl

theorem ld_r1 {Val : EltTy → Type} {φ : EltTy} (x : S8x1024x1024.Idx → Val φ) :
    (View.ld x r0_1 : S1x1024x1024.Idx → Val φ) = fun j => x (ix3 (0 : Fin 8) (j 1) (j 2)) := by
  funext j
  have h0 : (j 0).val < 1 := (j 0).isLt
  refine congrArg x (funext fun a => Fin.ext ?_)
  match a with
  | ⟨0, _⟩ => show 0 + 1 * (j 0).val = 0; omega
  | ⟨1, _⟩ => show 0 + 1 * (j 1).val = (j 1).val; omega
  | ⟨2, _⟩ => show 0 + 1 * (j 2).val = (j 2).val; omega

theorem ld_r2 {Val : EltTy → Type} {φ : EltTy} (x : S512x8.Idx → Val φ) :
    (View.ld x r0_2 : S512x1.Idx → Val φ) = fun j => x (ix2 (j 0) (0 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 0 + 1 * (j 1).val = 0; omega

theorem ld_r3 {Val : EltTy → Type} {φ : EltTy} (x : S8x1024x1024.Idx → Val φ) :
    (View.ld x r0_3 : S1x1024x1024.Idx → Val φ) = fun j => x (ix3 (1 : Fin 8) (j 1) (j 2)) := by
  funext j
  have h0 : (j 0).val < 1 := (j 0).isLt
  refine congrArg x (funext fun a => Fin.ext ?_)
  match a with
  | ⟨0, _⟩ => show 1 + 1 * (j 0).val = 1; omega
  | ⟨1, _⟩ => show 0 + 1 * (j 1).val = (j 1).val; omega
  | ⟨2, _⟩ => show 0 + 1 * (j 2).val = (j 2).val; omega

theorem ld_r4 {Val : EltTy → Type} {φ : EltTy} (x : S512x8.Idx → Val φ) :
    (View.ld x r0_4 : S512x1.Idx → Val φ) = fun j => x (ix2 (j 0) (1 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 1 + 1 * (j 1).val = 1; omega

theorem ld_r5 {Val : EltTy → Type} {φ : EltTy} (x : S8x1024x1024.Idx → Val φ) :
    (View.ld x r0_5 : S1x1024x1024.Idx → Val φ) = fun j => x (ix3 (2 : Fin 8) (j 1) (j 2)) := by
  funext j
  have h0 : (j 0).val < 1 := (j 0).isLt
  refine congrArg x (funext fun a => Fin.ext ?_)
  match a with
  | ⟨0, _⟩ => show 2 + 1 * (j 0).val = 2; omega
  | ⟨1, _⟩ => show 0 + 1 * (j 1).val = (j 1).val; omega
  | ⟨2, _⟩ => show 0 + 1 * (j 2).val = (j 2).val; omega

theorem ld_r6 {Val : EltTy → Type} {φ : EltTy} (x : S512x8.Idx → Val φ) :
    (View.ld x r0_6 : S512x1.Idx → Val φ) = fun j => x (ix2 (j 0) (2 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 2 + 1 * (j 1).val = 2; omega

theorem ld_r7 {Val : EltTy → Type} {φ : EltTy} (x : S8x1024x1024.Idx → Val φ) :
    (View.ld x r0_7 : S1x1024x1024.Idx → Val φ) = fun j => x (ix3 (3 : Fin 8) (j 1) (j 2)) := by
  funext j
  have h0 : (j 0).val < 1 := (j 0).isLt
  refine congrArg x (funext fun a => Fin.ext ?_)
  match a with
  | ⟨0, _⟩ => show 3 + 1 * (j 0).val = 3; omega
  | ⟨1, _⟩ => show 0 + 1 * (j 1).val = (j 1).val; omega
  | ⟨2, _⟩ => show 0 + 1 * (j 2).val = (j 2).val; omega

theorem ld_r8 {Val : EltTy → Type} {φ : EltTy} (x : S512x8.Idx → Val φ) :
    (View.ld x r0_8 : S512x1.Idx → Val φ) = fun j => x (ix2 (j 0) (3 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 3 + 1 * (j 1).val = 3; omega

theorem ld_r9 {Val : EltTy → Type} {φ : EltTy} (x : S8x1024x1024.Idx → Val φ) :
    (View.ld x r0_9 : S1x1024x1024.Idx → Val φ) = fun j => x (ix3 (4 : Fin 8) (j 1) (j 2)) := by
  funext j
  have h0 : (j 0).val < 1 := (j 0).isLt
  refine congrArg x (funext fun a => Fin.ext ?_)
  match a with
  | ⟨0, _⟩ => show 4 + 1 * (j 0).val = 4; omega
  | ⟨1, _⟩ => show 0 + 1 * (j 1).val = (j 1).val; omega
  | ⟨2, _⟩ => show 0 + 1 * (j 2).val = (j 2).val; omega

theorem ld_r10 {Val : EltTy → Type} {φ : EltTy} (x : S512x8.Idx → Val φ) :
    (View.ld x r0_10 : S512x1.Idx → Val φ) = fun j => x (ix2 (j 0) (4 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 4 + 1 * (j 1).val = 4; omega

theorem ld_r11 {Val : EltTy → Type} {φ : EltTy} (x : S8x1024x1024.Idx → Val φ) :
    (View.ld x r0_11 : S1x1024x1024.Idx → Val φ) = fun j => x (ix3 (5 : Fin 8) (j 1) (j 2)) := by
  funext j
  have h0 : (j 0).val < 1 := (j 0).isLt
  refine congrArg x (funext fun a => Fin.ext ?_)
  match a with
  | ⟨0, _⟩ => show 5 + 1 * (j 0).val = 5; omega
  | ⟨1, _⟩ => show 0 + 1 * (j 1).val = (j 1).val; omega
  | ⟨2, _⟩ => show 0 + 1 * (j 2).val = (j 2).val; omega

theorem ld_r12 {Val : EltTy → Type} {φ : EltTy} (x : S512x8.Idx → Val φ) :
    (View.ld x r0_12 : S512x1.Idx → Val φ) = fun j => x (ix2 (j 0) (5 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 5 + 1 * (j 1).val = 5; omega

theorem ld_r13 {Val : EltTy → Type} {φ : EltTy} (x : S8x1024x1024.Idx → Val φ) :
    (View.ld x r0_13 : S1x1024x1024.Idx → Val φ) = fun j => x (ix3 (6 : Fin 8) (j 1) (j 2)) := by
  funext j
  have h0 : (j 0).val < 1 := (j 0).isLt
  refine congrArg x (funext fun a => Fin.ext ?_)
  match a with
  | ⟨0, _⟩ => show 6 + 1 * (j 0).val = 6; omega
  | ⟨1, _⟩ => show 0 + 1 * (j 1).val = (j 1).val; omega
  | ⟨2, _⟩ => show 0 + 1 * (j 2).val = (j 2).val; omega

theorem ld_r14 {Val : EltTy → Type} {φ : EltTy} (x : S512x8.Idx → Val φ) :
    (View.ld x r0_14 : S512x1.Idx → Val φ) = fun j => x (ix2 (j 0) (6 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 6 + 1 * (j 1).val = 6; omega

theorem ld_r15 {Val : EltTy → Type} {φ : EltTy} (x : S8x1024x1024.Idx → Val φ) :
    (View.ld x r0_15 : S1x1024x1024.Idx → Val φ) = fun j => x (ix3 (7 : Fin 8) (j 1) (j 2)) := by
  funext j
  have h0 : (j 0).val < 1 := (j 0).isLt
  refine congrArg x (funext fun a => Fin.ext ?_)
  match a with
  | ⟨0, _⟩ => show 7 + 1 * (j 0).val = 7; omega
  | ⟨1, _⟩ => show 0 + 1 * (j 1).val = (j 1).val; omega
  | ⟨2, _⟩ => show 0 + 1 * (j 2).val = (j 2).val; omega

theorem ld_r16 {Val : EltTy → Type} {φ : EltTy} (x : S512x8.Idx → Val φ) :
    (View.ld x r0_16 : S512x1.Idx → Val φ) = fun j => x (ix2 (j 0) (7 : Fin 8)) := by
  funext j
  have h1 : (j 1).val < 1 := (j 1).isLt
  refine congrArg x (funext fun a => Fin.ext ?_)
  match a with
  | ⟨0, _⟩ => show 0 + 1 * (j 0).val = (j 0).val; omega
  | ⟨1, _⟩ => show 7 + 1 * (j 1).val = 7; omega

/-! ## The body's block -/

theorem out0_4_at (x0 : Vec Ideal S512x1024 .bf16) (x1 x2 : Vec Ideal S8x1024x1024 .bf16) (x3 : Vec Ideal S512x8 .f32)
    (r : Fin 512) (q : Fin 1024) :
    out0_4 (F := Ideal) x0 x1 x2 x3 (ix2 r q) = Cert.MoE.blockAt x0 x1 x2 x3 r q := by
  unfold out0_4
  rw [View.canon_unit_zero zero2]
  refine (body_at _ _ _ _ _ _ _ _ _ _ _ _ _ _ _ _ _ _ _ _ _ _ _ _ _ r q).trans ?_
  rw [View.ld_unit_zero zero2, ld_r1 x1, ld_r1 x2, ld_r2 x3, ld_r3 x1, ld_r3 x2, ld_r4 x3, ld_r5 x1, ld_r5 x2, ld_r6 x3,
    ld_r7 x1, ld_r7 x2, ld_r8 x3, ld_r9 x1, ld_r9 x2, ld_r10 x3, ld_r11 x1, ld_r11 x2, ld_r12 x3, ld_r13 x1, ld_r13 x2, ld_r14 x3,
    ld_r15 x1, ld_r15 x2, ld_r16 x3]
  rfl

end Cert.KernelIdeal.BodyValue

end
-- ==== Proof.SpecBlocks.lean ====
/-
  A block of the kernel's sum is the whole-array sum at the block's rows: if a block of activations holds rows 512·T … 512·T + 511 of
  the activations, the two weight arrays are read whole, and the coefficient block holds the same rows of the dense coefficients, then
  entry (r, q) of the block is the kernel's value at token 512·T + r, unit q.
-/
import proofs.«429594_j19748259627301_1_alg».proof.Proof.Spec

noncomputable section

namespace Cert.MoE

open Idealize.ShloMosaic Idealize.ShloMosaic.ValueIdx

/-- Row `r` of block `T` (of 16) is token 512·T + r. -/
def tok (T : Nat) (hT : T < 16) (r : Fin 512) : Fin 8192 := ⟨512 * T + r.val, by have := r.isLt; omega⟩

theorem blockAt_eq_kernelAt (x : STok.Idx → EReal) (idx : SRoute.Idx → BitVec 32) (w : SRoute.Idx → EReal) (W1 W2 : SWt.Idx → EReal)
    (xb : SBlk.Idx → EReal) (A B : SWt.Idx → EReal) (cb : SBlkCoef.Idx → EReal) (T : Nat) (hT : T < 16)
    (hx : ∀ (r : Fin 512) (d : Fin 1024), xb (ix2 r d) = x (ix2 (tok T hT r) d))
    (hA : ∀ (e : Fin 8) (o d : Fin 1024), A (ix3 e o d) = W1 (ix3 e o d))
    (hB : ∀ (e : Fin 8) (p o : Fin 1024), B (ix3 e p o) = W2 (ix3 e p o))
    (hc : ∀ (r : Fin 512) (e : Fin 8), cb (ix2 r e) = coeff idx w (tok T hT r) e)
    (r : Fin 512) (q : Fin 1024) :
    blockAt xb A B cb r q = kernelAt x idx w W1 W2 (tok T hT r) q := by
  unfold blockAt kernelAt blockExpert expertOut hidden
  simp only [hx, hA, hB, hc]

end Cert.MoE

end
-- ==== Proof.KernelValue.lean ====
/-
  From blocks to the array. The grid has 16 points; point T stages rows 512·T … 512·T + 511 of the activations and of the coefficient
  matrix, both weight arrays whole, and writes rows 512·T … 512·T + 511 of the result. What the body leaves in its output block is the
  kernel's sum over the block's own rows (the body's value at an index), and those rows are the activations' and the coefficients' rows
  512·T + r (the block reads), so point T writes back block T of ONE function of the argument arrays: the kernel's value at every
  (token, unit). The sixteen blocks tile the result array (the point that covers row i is i / 512), so the array ends holding that function.
-/
import proofs.«429594_j19748259627301_1_alg».proof.Proof.KernelHost
import proofs.«429594_j19748259627301_1_alg».proof.Proof.KernelBody
import proofs.«429594_j19748259627301_1_alg».proof.Proof.SpecBlocks

noncomputable section

namespace Cert.KernelIdeal.ArrValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps, decided over the 16 points: the activations', the coefficients' and the result's blocks move with the
    point along the token axis; the weight arrays' one block never moves. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A point's number is below 16. -/
theorem point_lt (t : Fin cfg0.N) : t.val < 16 := lt_of_lt_of_eq t.isLt N_0

/-- The four input blocks at a point, each at its literal type. -/
abbrev actBlk (c : Dev nD) (t : Fin cfg0.N) : Vec Ideal S512x1024 .bf16 := iblk m c 0 t
abbrev w1Blk (c : Dev nD) (t : Fin cfg0.N) : Vec Ideal S8x1024x1024 .bf16 := iblk m c 1 t
abbrev w2Blk (c : Dev nD) (t : Fin cfg0.N) : Vec Ideal S8x1024x1024 .bf16 := iblk m c 2 t
abbrev coefBlk (c : Dev nD) (t : Fin cfg0.N) : Vec Ideal S512x8 .f32 := iblk m c 3 t

/-- Row `r` of the activations' block at point `t` is row 512·t + r of the activations. -/
theorem actBlk_at (c : Dev nD) (t : Fin cfg0.N) (r : Fin 512) (d : Fin 1024) :
    actBlk m c t (ix2 r d) = (m ((c : Thread nD τ).loc main_arg0) : S8192x1024.Idx → EReal) (ix2 (Cert.MoE.tok t.val (point_lt t) r) d) := by
  obtain ⟨e0, e1, -⟩ := idx_facts t
  rw [← HostValue.V_x m c]
  show V m c main_v7 (((cfg0.win 0).blk t).view.emb (ix2 r d)) = V m c main_v7 (ix2 (Cert.MoE.tok t.val (point_lt t) r) d)
  refine congrArg (V m c main_v7) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * d.val = d.val; omega

/-- The first weight array is staged whole at every point. -/
theorem w1Blk_at (c : Dev nD) (t : Fin cfg0.N) (e : Fin 8) (o d : Fin 1024) :
    w1Blk m c t (ix3 e o d) = (m ((c : Thread nD τ).loc main_arg3) : S8x1024x1024.Idx → EReal) (ix3 e o d) := by
  obtain ⟨-, -, e0, e1, e2, -⟩ := idx_facts t
  rw [← HostValue.V_W1 m c]
  show V m c main_v8 (((cfg0.win 1).blk t).view.emb (ix3 e o d)) = V m c main_v8 (ix3 e o d)
  refine congrArg (V m c main_v8) (funext fun a => Fin.ext ?_)
  match a with
  | ⟨0, _⟩ => show win0_1.index t (0 : Fin 3) * 8 + 1 * e.val = e.val; omega
  | ⟨1, _⟩ => show win0_1.index t (1 : Fin 3) * 1024 + 1 * o.val = o.val; omega
  | ⟨2, _⟩ => show win0_1.index t (2 : Fin 3) * 1024 + 1 * d.val = d.val; omega

/-- So is the second. -/
theorem w2Blk_at (c : Dev nD) (t : Fin cfg0.N) (e : Fin 8) (p o : Fin 1024) :
    w2Blk m c t (ix3 e p o) = (m ((c : Thread nD τ).loc main_arg4) : S8x1024x1024.Idx → EReal) (ix3 e p o) := by
  obtain ⟨-, -, -, -, -, e0, e1, e2, -⟩ := idx_facts t
  rw [← HostValue.V_W2 m c]
  show V m c main_v9 (((cfg0.win 2).blk t).view.emb (ix3 e p o)) = V m c main_v9 (ix3 e p o)
  refine congrArg (V m c main_v9) (funext fun a => Fin.ext ?_)
  match a with
  | ⟨0, _⟩ => show win0_2.index t (0 : Fin 3) * 8 + 1 * e.val = e.val; omega
  | ⟨1, _⟩ => show win0_2.index t (1 : Fin 3) * 1024 + 1 * p.val = p.val; omega
  | ⟨2, _⟩ => show win0_2.index t (2 : Fin 3) * 1024 + 1 * o.val = o.val; omega

/-- Row `r` of the coefficients' block at point `t` holds token 512·t + r's dense routing coefficients. -/
theorem coefBlk_at (c : Dev nD) (t : Fin cfg0.N) (r : Fin 512) (e : Fin 8) :
    coefBlk m c t (ix2 r e)
      = Cert.MoE.coeff (m ((c : Thread nD τ).loc main_arg1)) (m ((c : Thread nD τ).loc main_arg2)) (Cert.MoE.tok t.val (point_lt t) r) e := by
  obtain ⟨-, -, -, -, -, -, -, -, e0, e1, -⟩ := idx_facts t
  rw [← HostValue.V_coeff m c]
  show V m c main_v6 (((cfg0.win 3).blk t).view.emb (ix2 r e)) = V m c main_v6 (ix2 (Cert.MoE.tok t.val (point_lt t) r) e)
  refine congrArg (V m c main_v6) (funext fun a => Fin.ext ?_)
  match a with
  | ⟨0, _⟩ => show win0_3.index t (0 : Fin 2) * 512 + 1 * r.val = 512 * t.val + r.val; omega
  | ⟨1, _⟩ => show win0_3.index t (1 : Fin 2) * 8 + 1 * e.val = e.val; omega

/-- THE RESULT as one function of the argument arrays: the kernel's value at every (token, unit). -/
abbrev result (c : Dev nD) : S8192x1024.Idx → EReal := fun i =>
  Cert.MoE.kernelAt (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- Entry (r, q) of what the body leaves at point `t` is the kernel's value at token 512·t + r, unit q: the body's value at an
    index over the block's own rows, and the block reads. -/
theorem body_at (c : Dev nD) (t : Fin cfg0.N) (r : Fin 512) (q : Fin 1024) :
    out0_4 (F := Ideal) (actBlk m c t) (w1Blk m c t) (w2Blk m c t) (coefBlk m c t) (ix2 r q)
      = result m c (ix2 (Cert.MoE.tok t.val (point_lt t) r) q) :=
  (BodyValue.out0_4_at (actBlk m c t) (w1Blk m c t) (w2Blk m c t) (coefBlk m c t) r q).trans
    (Cert.MoE.blockAt_eq_kernelAt (m ((c : Thread nD τ).loc main_arg0)) (m ((c : Thread nD τ).loc main_arg1))
      (m ((c : Thread nD τ).loc main_arg2)) (m ((c : Thread nD τ).loc main_arg3)) (m ((c : Thread nD τ).loc main_arg4))
      (actBlk m c t) (w1Blk m c t) (w2Blk m c t) (coefBlk m c t) t.val (point_lt t)
      (actBlk_at m c t) (w1Blk_at m c t) (w2Blk_at m c t) (coefBlk_at m c t) r q)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [Value.flushed4]
  obtain ⟨-, -, -, -, -, -, -, -, -, -, e0, e1⟩ := idx_facts t
  funext j
  obtain ⟨r, q, rfl⟩ : ∃ (r : Fin 512) (q : Fin 1024), j = ix2 r q := ⟨j 0, j 1, eq_ix2 j⟩
  show out0_4 (actBlk m c t) (w1Blk m c t) (w2Blk m c t) (coefBlk m c t) (ix2 r q)
      = result m c (((cfg0.win 4).blk t).view.emb (ix2 r q))
  refine (body_at m c t r q).trans (congrArg (result m c) (funext fun a => Fin.ext ?_))
  match a with
  | ⟨0, _⟩ => show 512 * t.val + r.val = win0_4.index t (0 : Fin 2) * 512 + 1 * r.val; omega
  | ⟨1, _⟩ => show q.val = win0_4.index t (1 : Fin 2) * 1024 + 1 * q.val; omega

/-- An index of the result array is in point `t`'s block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v10).slice (win0_4.rect t)).set ↔ _
  rw [View.set_slice_whole, Rect.mem_set_unit]
  exact Iff.rfl

/-- Every index of the result array is in some point's block: row `i` is in block `i / 512`. -/
theorem cover (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 512, lt_of_lt_of_eq (by omega : (i 0).val / 512 < 16) N_0.symm⟩
  obtain ⟨-, -, -, -, -, -, -, -, -, -, e0, e1⟩ := idx_facts t
  have ht : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE RESULT ARRAY after the run is `result`. -/
theorem final (c : Dev nD) : (dats m 0 c).arrAt 4 cfg0.N = result m c :=
  (dats m 0 c).arrAt_eq_of_cover 4 (result m c) (fun t _ => flushed_eq m c t) cover

/-- The kernel's run with its result array named: the kernel's value at every (token, unit) of the argument arrays, which end
    unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrValue

end
-- ==== Proof.RefExperts.lean ====
/-
  The reference's dense part read at an index: after the two contractions, the two relus and the two transposes, entry
  (t, e, p) of the [tokens, experts, units] array is expert e's output unit p at token t.
-/
import proofs.«429594_j19748259627301_1_alg».proof.Proof.RefReadP
import proofs.«429594_j19748259627301_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- Entry (e, o, t) of the first contraction: the weights of expert e's hidden unit o against token t's activations,
    summed over the input unit, the weight as the left factor. -/
private theorem val_main_v0_at (x0 : (⟨S8192x1024, .f32⟩ : BufTy).Contents (Elt Ideal)) (x3 : (⟨S8x1024x1024, .f32⟩ : BufTy).Contents (Elt Ideal))
    (e : Fin 8) (o : Fin 1024) (t : Fin 8192) :
    val_main_v0 (F := Ideal) x0 x3 (ix3 e o t) = ∑ d : Fin 1024, x3 (ix3 e o d) * x0 (ix2 t d) := by
  rw [val_main_v0_apply]
  refine Finset.sum_congr rfl fun d _ => ?_
  have el : lidx_main_v0 (ix3 e o t) d = ix3 e o d :=
    funext fun a => Fin.ext (by match a with | ⟨0, _⟩ => rfl | ⟨1, _⟩ => rfl | ⟨2, _⟩ => rfl)
  have er : ridx_main_v0 (ix3 e o t) d = ix2 t d :=
    funext fun a => Fin.ext (by match a with | ⟨0, _⟩ => rfl | ⟨1, _⟩ => rfl)
  rw [el, er]

/-- Entry (e, t, o) after the first transpose and the first relu is hidden unit o of expert e at token t: the transpose swaps
    the last two coordinates back, the broadcast constant is zero, and the factors of each product commute. -/
private theorem val_main_v2_at (x0 : (⟨S8192x1024, .f32⟩ : BufTy).Contents (Elt Ideal)) (x3 : (⟨S8x1024x1024, .f32⟩ : BufTy).Contents (Elt Ideal))
    (e : Fin 8) (t : Fin 8192) (o : Fin 1024) :
    val_main_v2 (F := Ideal) x0 x3 (ix3 e t o) = Cert.MoE.hidden x0 x3 e t o := by
  have ei : idx_main_v1 (ix3 e t o) = ix3 e o t :=
    funext fun a => Fin.ext (by match a with | ⟨0, _⟩ => rfl | ⟨1, _⟩ => rfl | ⟨2, _⟩ => rfl)
  rw [val_main_v2_apply, val_main_v1_apply, ei, val_main_v0_at, val_main_call0_v0_apply, val_main_call0_cst_apply,
    Ideal.maximumf_def, Ideal.ofBits_def, Ideal.ofBits_zero_f32]
  unfold Cert.MoE.hidden
  exact congrArg (max · 0) (Finset.sum_congr rfl fun d _ => mul_comm _ _)

/-- Entry (e, t, p) after the second contraction and the second relu is output unit p of expert e at token t. -/
private theorem val_main_v4_at (x0 : (⟨S8192x1024, .f32⟩ : BufTy).Contents (Elt Ideal)) (x3 x4 : (⟨S8x1024x1024, .f32⟩ : BufTy).Contents (Elt Ideal))
    (e : Fin 8) (t : Fin 8192) (p : Fin 1024) :
    val_main_v4 (F := Ideal) x0 x3 x4 (ix3 e t p) = Cert.MoE.expertOut x0 x3 x4 e t p := by
  rw [val_main_v4_apply, val_main_v3_apply, val_main_call1_v0_apply, val_main_call1_cst_apply,
    Ideal.maximumf_def, Ideal.ofBits_def, Ideal.ofBits_zero_f32]
  unfold Cert.MoE.expertOut
  refine congrArg (max · 0) (Finset.sum_congr rfl fun o _ => ?_)
  have el : lidx_main_v3 (ix3 e t p) o = ix3 e t o :=
    funext fun a => Fin.ext (by match a with | ⟨0, _⟩ => rfl | ⟨1, _⟩ => rfl | ⟨2, _⟩ => rfl)
  have er : ridx_main_v3 (ix3 e t p) o = ix3 e p o :=
    funext fun a => Fin.ext (by match a with | ⟨0, _⟩ => rfl | ⟨1, _⟩ => rfl | ⟨2, _⟩ => rfl)
  rw [el, er, val_main_v2_at]

theorem val_main_v7_at (x0 : (⟨S8192x1024, .f32⟩ : BufTy).Contents (Elt Ideal)) (x3 x4 : (⟨S8x1024x1024, .f32⟩ : BufTy).Contents (Elt Ideal))
    (t : Fin 8192) (e : Fin 8) (p : Fin 1024) :
    val_main_v7 (F := Ideal) x0 x3 x4 (ix3 t e p) = Cert.MoE.expertOut x0 x3 x4 e t p := by
  have ei : idx_main_v7 (ix3 t e p) = ix3 e t p :=
    funext fun a => Fin.ext (by match a with | ⟨0, _⟩ => rfl | ⟨1, _⟩ => rfl | ⟨2, _⟩ => rfl)
  rw [val_main_v7_apply, ei, val_main_v4_at]

end Cert.ReferenceIdeal.RefValue

end
-- ==== Proof.RefValue.lean ====
/-
  The reference's result as one function of its arguments: with every routing index in [0, 8) the gather's range mask is all
  ones and its start index is the index itself, so entry (t, p) is the two named experts' outputs weighed and added from zero.
-/
import proofs.«429594_j19748259627301_1_alg».proof.Proof.RefExperts
import Idealize.ShloMosaic.Lib.ReduceAll

noncomputable section

namespace Cert.ReferenceIdeal.RefValue

open Cert.ReferenceIdeal Cert.ReferenceIdeal.Gen Cert.ReferenceIdeal.ReadP Idealize.ShloMosaic Idealize.ShloMosaic.ValueIdx

/-! ## Index words in range: what the three signed comparisons say -/

/-- A word that reads non-negative is not below zero. -/
private theorem slt_zero_of_nonneg (a : BitVec 32) (h : 0 ≤ a.toInt) : IntOp.cmpi .slt a 0#32 = 0#1 := by
  rcases BitVec.eq_zero_or_eq_one (IntOp.cmpi .slt a 0#32) with h0 | h1
  · exact h0
  · have h2 : a.toInt < (0#32 : BitVec 32).toInt := IntOp.cmpi_slt.1 h1
    rw [show (0#32 : BitVec 32).toInt = 0 from by decide] at h2
    omega

/-- A word that reads non-negative is at least zero. -/
private theorem sge_zero_of_nonneg (a : BitVec 32) (h : 0 ≤ a.toInt) : IntOp.cmpi .sge a 0#32 = 1#1 :=
  IntOp.cmpi_sge.2 (by rw [show (0#32 : BitVec 32).toInt = 0 from by decide]; exact h)

/-- A word that reads below eight is at most seven. -/
private theorem sle_seven_of_lt (a : BitVec 32) (h : a.toInt < 8) : IntOp.cmpi .sle a 7#32 = 1#1 :=
  IntOp.cmpi_sle.2 (by rw [show (7#32 : BitVec 32).toInt = 7 from by decide]; omega)

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_ones f hf l

/-! ## The routing arrays read at (token, slot) -/

/-- The index vector as [8192, 2, 1]: entry (t, k, 0) is the index word of slot k of token t, flat position 2t + k. -/
private theorem idx3_at (x1 : (⟨S16384, .i32⟩ : BufTy).Contents (Elt Ideal)) (t : Fin 8192) (k : Fin 2) (z : Fin 1) :
    val_main_v8 (F := Ideal) x1 (ix3 t k z) = x1 (ix1 (Cert.MoE.slot t k)) := by
  rw [val_main_v8_apply, val_main_v5_apply]
  refine congrArg x1 (funext fun a => ?_)
  match a with
  | ⟨0, _⟩ => exact Fin.ext (by show t.val * 2 + k.val = 2 * t.val + k.val; omega)

/-- The weight vector as [8192, 2, 1024]: entry (t, k, p) is the weight of slot k of token t, whatever the unit p. -/
private theorem wt3_at (x2 : (⟨S16384, .f32⟩ : BufTy).Contents (Elt Ideal)) (t : Fin 8192) (k : Fin 2) (p : Fin 1024) :
    val_main_v11 (F := Ideal) x2 (ix3 t k p) = x2 (ix1 (Cert.MoE.slot t k)) := by
  rw [val_main_v11_apply, val_main_v10_apply, val_main_v6_apply]
  refine congrArg x2 (funext fun a => ?_)
  match a with
  | ⟨0, _⟩ => exact Fin.ext (by show t.val * 2 + k.val = 2 * t.val + k.val; omega)

/-! ## Inside take_along_axis -/

/-- The wrap of negative indices leaves an index word in range as it is: the start index at (t, k, 0) is the slot's word. -/
private theorem start_at (x1 : (⟨S16384, .i32⟩ : BufTy).Contents (Elt Ideal))
    (hidx : ∀ j, 0 ≤ (x1 j).toInt ∧ (x1 j).toInt < 8) (t : Fin 8192) (k : Fin 2) (z : Fin 1) :
    val_main_call2_v4 (F := Ideal) x1 (ix3 t k z) = x1 (ix1 (Cert.MoE.slot t k)) := by
  rw [val_main_call2_v4_apply, val_main_call2_v1_apply, idx3_at, val_main_call2_v0_apply, val_main_call2_c_apply,
    slt_zero_of_nonneg _ (hidx _).1, select_zero]

/-- The range mask (start ≥ 0 and start ≤ 7) is 1 at every index. -/
private theorem mask_at (x1 : (⟨S16384, .i32⟩ : BufTy).Contents (Elt Ideal))
    (hidx : ∀ j, 0 ≤ (x1 j).toInt ∧ (x1 j).toInt < 8) (i : S8192x2x1.Idx) :
    val_main_call2_v10 (F := Ideal) x1 i = 1#1 := by
  obtain ⟨t, k, z, rfl⟩ : ∃ (t : Fin 8192) (k : Fin 2) (z : Fin 1), i = ix3 t k z := ⟨i 0, i 1, i 2, eq_ix3 i⟩
  rw [val_main_call2_v10_apply, val_main_call2_v6_apply, val_main_call2_v9_apply, start_at x1 hidx,
    val_main_call2_v5_apply, val_main_call2_c_2_apply, val_main_call2_v8_apply, val_main_call2_v7_apply,
    val_main_call2_c_1_apply]
  exact IntOp.andi_eq_one.2 ⟨sge_zero_of_nonneg _ (hidx _).1, sle_seven_of_lt _ (hidx _).2⟩

/-- The mask reduced by `and` over the last axis, from 1, is 1 at every (token, slot). -/
private theorem allmask_at (x1 : (⟨S16384, .i32⟩ : BufTy).Contents (Elt Ideal))
    (hidx : ∀ j, 0 ≤ (x1 j).toInt ∧ (x1 j).toInt < 8) (j : S8192x2.Idx) :
    val_main_call2_v11 (F := Ideal) x1 j = 1#1 := by
  unfold val_main_call2_v11
  rw [Host.reduce_eq_foldl, val_main_call2_c_3_apply]
  exact foldl_andi_ones _ (mask_at x1 hidx) _

/-- The gather's dimension numbers: token axis batched with the start indices' token axis, expert axis collapsed and
    start-indexed, unit axis the one offset axis. -/
private abbrev GD : GatherDims S8192x8x1024 S8192x2x1 S8192x2x1024 :=
  gather_S8192x8x1024_S8192x2x1_S8192x2x1024_2_1_0_0_1_2_111024

/-- The gather read at (t, k, p): on the token axis the result's own token (the batching pair), on the expert axis the start
    index at (t, k, 0) read signed and clamped into [0, 7], on the unit axis the result's own unit (the offset axis). -/
private theorem gather_at {α : Type} (y : S8192x8x1024.Idx → α) (idx : IVec S8192x2x1 32) (t : Fin 8192) (k : Fin 2)
    (p : Fin 1024) :
    Host.gather GD y idx (ix3 t k p) = y (ix3 t (Cert.MoE.expertOf (idx (ix3 t k 0))) p) := by
  unfold Host.gather
  refine congrArg y (funext fun a => Fin.ext ?_)
  match a with
  | ⟨0, _⟩ =>
    show GD.start (ix3 t k p) idx 0 + GD.batchCoord (ix3 t k p) 0 + GD.offCoord (ix3 t k p) 0 = t.val
    rw [GatherDims.start_batching GD _ idx 0 (by decide),
      GatherDims.offCoord_eq_zero GD _ 0 (fun h => ((GatherDims.mem_sKept GD 0).1 h).2 (by decide)),
      Nat.zero_add, Nat.add_zero]
    unfold GatherDims.batchCoord
    rw [dif_pos (show (0 : Fin S8192x8x1024.rank) ∈ GD.operandBatchingDims by decide)]
    rfl
  | ⟨1, _⟩ =>
    show GD.start (ix3 t k p) idx 1 + GD.batchCoord (ix3 t k p) 1 + GD.offCoord (ix3 t k p) 1
      = min (idx (ix3 t k 0)).toInt.toNat 7
    rw [GatherDims.batchCoord_eq_zero GD _ 1 (by decide),
      GatherDims.offCoord_eq_zero GD _ 1 (fun h => ((GatherDims.mem_sKept GD 1).1 h).1 (by decide)),
      Nat.add_zero]
    unfold GatherDims.start
    rw [dif_pos (show (1 : Fin S8192x8x1024.rank) ∈ GD.startIndexMap by decide)]
    have hsi : GD.siIdx (ix3 t k p) ⟨List.idxOf (1 : Fin S8192x8x1024.rank) GD.startIndexMap,
        List.idxOf_lt_length_iff.2 (by decide)⟩ = ix3 t k 0 := by
      funext b
      refine Fin.ext ?_
      match b with
      | ⟨0, _⟩ => rfl
      | ⟨1, _⟩ => rfl
      | ⟨2, _⟩ => rfl
    rw [hsi]
    rfl
  | ⟨2, _⟩ =>
    show GD.start (ix3 t k p) idx 2 + GD.batchCoord (ix3 t k p) 2 + GD.offCoord (ix3 t k p) 2 = p.val
    unfold GatherDims.start
    rw [dif_neg (show (2 : Fin S8192x8x1024.rank) ∉ GD.startIndexMap by decide),
      GatherDims.batchCoord_eq_zero GD _ 2 (by decide), Nat.zero_add]
    unfold GatherDims.offCoord
    rw [dif_pos (show (2 : Fin S8192x8x1024.rank) ∈ GD.sKept by decide)]
    rfl

/-- With the mask all ones the select keeps the gathered entry: (t, k, p) of take_along_axis's result is output unit p, at
    token t, of the expert that slot k of token t names. -/
private theorem picked_at (x0 : (⟨S8192x1024, .f32⟩ : BufTy).Contents (Elt Ideal)) (x1 : (⟨S16384, .i32⟩ : BufTy).Contents (Elt Ideal))
    (x3 x4 : (⟨S8x1024x1024, .f32⟩ : BufTy).Contents (Elt Ideal))
    (hidx : ∀ j, 0 ≤ (x1 j).toInt ∧ (x1 j).toInt < 8) (t : Fin 8192) (k : Fin 2) (p : Fin 1024) :
    val_main_v9 (F := Ideal) x0 x1 x3 x4 (ix3 t k p)
      = Cert.MoE.expertOut x0 x3 x4 (Cert.MoE.expertOf (x1 (ix1 (Cert.MoE.slot t k)))) t p := by
  rw [val_main_v9_apply, val_main_call2_v13_apply, allmask_at x1 hidx, select_one]
  unfold val_main_call2_v12
  rw [gather_at, start_at x1 hidx, val_main_v7_at]

theorem val_main_v13_is (x0 : (⟨S8192x1024, .f32⟩ : BufTy).Contents (Elt Ideal)) (x1 : (⟨S16384, .i32⟩ : BufTy).Contents (Elt Ideal))
    (x2 : (⟨S16384, .f32⟩ : BufTy).Contents (Elt Ideal)) (x3 x4 : (⟨S8x1024x1024, .f32⟩ : BufTy).Contents (Elt Ideal))
    (hidx : ∀ j, 0 ≤ (x1 j).toInt ∧ (x1 j).toInt < 8) :
    val_main_v13 (F := Ideal) x0 x1 x2 x3 x4 = fun i => Cert.MoE.refAt x0 x1 x2 x3 x4 (i 0) (i 1) := by
  funext i
  obtain ⟨t, p, rfl⟩ : ∃ (t : Fin 8192) (p : Fin 1024), i = ix2 t p := ⟨i 0, i 1, eq_ix2 i⟩
  show val_main_v13 (F := Ideal) x0 x1 x2 x3 x4 (ix2 t p) = Cert.MoE.refAt x0 x1 x2 x3 x4 t p
  rw [val_main_v13_apply, val_main_cst_apply, Ideal.ofBits_def, Ideal.ofBits_zero_f32]
  unfold Cert.MoE.refAt
  refine congrArg (0 + ·) (Finset.sum_congr rfl fun k _ => ?_)
  have hk : idx_main_v13 (ix2 t p) k = ix3 t k p := funext fun a => by
    match a with
    | ⟨0, _⟩ => rfl
    | ⟨1, _⟩ => rfl
    | ⟨2, _⟩ => rfl
  rw [hk, val_main_v12_apply, picked_at x0 x1 x3 x4 hidx, wt3_at, Ideal.mulf_def]

end Cert.ReferenceIdeal.RefValue

end
-- ==== Proof.Law.lean ====
/-
  The algebraic law that joins the two sides: with every slot's index naming an expert in [0, 8) and every float input a real
  number, weighing all eight experts by their dense coefficients and picking the two named experts give the same number.
-/
import proofs.«429594_j19748259627301_1_alg».proof.Proof.Spec

noncomputable section

namespace Cert.MoE

open Idealize.ShloMosaic Idealize.ShloMosaic.ValueIdx

/-- The coercion of the reals into the extended reals commutes with finite sums. -/
private theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum of two reals. -/
private theorem coe_max_real (a b : ℝ) : ((max a b : ℝ) : EReal) = max (a : EReal) (b : EReal) :=
  (EReal.coe_strictMono.monotone).map_max

/-- A relu of a finite sum of products of reals is a real. -/
private theorem relu_dot_real {n : ℕ} (f g : Fin n → EReal)
    (hf : ∀ i, ∃ r : ℝ, f i = (r : EReal)) (hg : ∀ i, ∃ r : ℝ, g i = (r : EReal)) :
    ∃ r : ℝ, max (∑ i : Fin n, f i * g i) 0 = (r : EReal) := by
  choose fr hfr using hf
  choose gr hgr using hg
  refine ⟨max (∑ i : Fin n, fr i * gr i) 0, ?_⟩
  rw [coe_max_real, coe_finsum, EReal.coe_zero]
  congr 1
  refine Finset.sum_congr rfl (fun i _ => ?_)
  rw [hfr i, hgr i, EReal.coe_mul]

/-- Every hidden unit is a real. -/
private theorem hidden_real (x : STok.Idx → EReal) (W1 : SWt.Idx → EReal)
    (hx : ∀ i, ∃ r : ℝ, x i = (r : EReal)) (hW1 : ∀ i, ∃ r : ℝ, W1 i = (r : EReal))
    (e : Fin 8) (t : Fin 8192) (o : Fin 1024) : ∃ r : ℝ, hidden x W1 e t o = (r : EReal) :=
  relu_dot_real (fun d => x (ix2 t d)) (fun d => W1 (ix3 e o d)) (fun d => hx _) (fun d => hW1 _)

/-- Every expert output is a real. -/
private theorem expertOut_real (x : STok.Idx → EReal) (W1 W2 : SWt.Idx → EReal)
    (hx : ∀ i, ∃ r : ℝ, x i = (r : EReal)) (hW1 : ∀ i, ∃ r : ℝ, W1 i = (r : EReal))
    (hW2 : ∀ i, ∃ r : ℝ, W2 i = (r : EReal))
    (e : Fin 8) (t : Fin 8192) (p : Fin 1024) : ∃ r : ℝ, expertOut x W1 W2 e t p = (r : EReal) :=
  relu_dot_real (fun o => hidden x W1 e t o) (fun o => W2 (ix3 e p o))
    (fun o => hidden_real x W1 hx hW1 e t o) (fun o => hW2 _)

/-- An index word whose signed reading lies in [0, 8) has that same unsigned reading. -/
private theorem toNat_of_range (b : BitVec 32) (hb : 0 ≤ b.toInt ∧ b.toInt < 8) :
    b.toInt = (b.toNat : ℤ) ∧ b.toNat < 8 := by
  have h := BitVec.toInt_eq_toNat_cond b
  have hlt := b.isLt
  split_ifs at h <;> omega

/-- For an index word in range, the one-hot entry at `e` is one exactly when the word names `e`. -/
private theorem hot_eq (b : BitVec 32) (hb : 0 ≤ b.toInt ∧ b.toInt < 8) (e : Fin 8) :
    hot b e = if expertOf b = e then 1 else 0 := by
  obtain ⟨h1, h2⟩ := toNat_of_range b hb
  unfold hot expertOf
  have : (b = BitVec.ofNat 32 e.val) ↔ ((⟨min b.toInt.toNat 7, by omega⟩ : Fin 8) = e) := by
    rw [Fin.ext_iff, ← BitVec.toNat_inj]
    simp only [BitVec.toNat_ofNat]
    have he := e.isLt
    omega
  simp only [this]

/-- The one-hot entry as the coercion of a real. -/
private theorem ite_coe (c : Prop) [Decidable c] :
    (if c then (1 : EReal) else 0) = (((if c then 1 else 0 : ℝ)) : EReal) := by
  split_ifs <;> simp

/-- The law over the reals: the eight products of an expert's output with its dense coefficient, added from zero left to right,
    leave exactly the two routed products. -/
private theorem law_real (a : Fin 8 → ℝ) (w0 w1 : ℝ) (e0 e1 : Fin 8) :
    0 + a 0 * (0 + ((if e0 = 0 then 1 else 0) * w0 + (if e1 = 0 then 1 else 0) * w1))
      + a 1 * (0 + ((if e0 = 1 then 1 else 0) * w0 + (if e1 = 1 then 1 else 0) * w1))
      + a 2 * (0 + ((if e0 = 2 then 1 else 0) * w0 + (if e1 = 2 then 1 else 0) * w1))
      + a 3 * (0 + ((if e0 = 3 then 1 else 0) * w0 + (if e1 = 3 then 1 else 0) * w1))
      + a 4 * (0 + ((if e0 = 4 then 1 else 0) * w0 + (if e1 = 4 then 1 else 0) * w1))
      + a 5 * (0 + ((if e0 = 5 then 1 else 0) * w0 + (if e1 = 5 then 1 else 0) * w1))
      + a 6 * (0 + ((if e0 = 6 then 1 else 0) * w0 + (if e1 = 6 then 1 else 0) * w1))
      + a 7 * (0 + ((if e0 = 7 then 1 else 0) * w0 + (if e1 = 7 then 1 else 0) * w1))
    = 0 + (a e0 * w0 + a e1 * w1) := by
  have key : ∀ (e' : Fin 8) (v : ℝ),
      a 0 * ((if e' = 0 then 1 else 0) * v) + a 1 * ((if e' = 1 then 1 else 0) * v)
        + a 2 * ((if e' = 2 then 1 else 0) * v) + a 3 * ((if e' = 3 then 1 else 0) * v)
        + a 4 * ((if e' = 4 then 1 else 0) * v) + a 5 * ((if e' = 5 then 1 else 0) * v)
        + a 6 * ((if e' = 6 then 1 else 0) * v) + a 7 * ((if e' = 7 then 1 else 0) * v) = a e' * v := by
    intro e' v
    fin_cases e' <;> simp
  have k0 := key e0 w0
  have k1 := key e1 w1
  linear_combination k0 + k1

theorem kernelAt_eq_refAt (x : STok.Idx → EReal) (idx : SRoute.Idx → BitVec 32) (w : SRoute.Idx → EReal) (W1 W2 : SWt.Idx → EReal)
    (hx : ∀ i, ∃ r : ℝ, x i = (r : EReal)) (hw : ∀ j, ∃ r : ℝ, w j = (r : EReal))
    (hW1 : ∀ i, ∃ r : ℝ, W1 i = (r : EReal)) (hW2 : ∀ i, ∃ r : ℝ, W2 i = (r : EReal))
    (hidx : ∀ j, 0 ≤ (idx j).toInt ∧ (idx j).toInt < 8) (t : Fin 8192) (p : Fin 1024) :
    kernelAt x idx w W1 W2 t p = refAt x idx w W1 W2 t p := by
  -- the eight expert outputs at (t, p) and the two slot weights, as reals
  choose a ha using fun e => expertOut_real x W1 W2 hx hW1 hW2 e t p
  obtain ⟨w0, hw0⟩ := hw (ix1 (slot t 0))
  obtain ⟨w1, hw1⟩ := hw (ix1 (slot t 1))
  unfold kernelAt refAt coeff
  simp only [Fin.sum_univ_two, hot_eq _ (hidx _), ha, hw0, hw1, ite_coe]
  generalize expertOf (idx (ix1 (slot t 0))) = e0
  generalize expertOf (idx (ix1 (slot t 1))) = e1
  simp only [← EReal.coe_mul, ← EReal.coe_add, ← EReal.coe_zero]
  exact congrArg _ (law_real a w0 w1 e0 e1)

end Cert.MoE

end
-- ==== Proof.PreFacts.lean ====
/-
  What the precondition says of the inputs: every float entry is a real number, and every routing index lies in [0, 8).

  The predicate is a conjunction of six all-reductions by "and", each stated to be 1. An all-reduction by "and" that is 1 met
  a 1 at every index. For a float array the element fact is |v| < +∞, where |v| = max v (−v) and the bound is the f32 word
  0x7F800000; over the extended reals only ⊥ and ⊤ have absolute value ⊤, so v is a real. For the index array the two
  element facts are signed comparisons against the constants 0 and 8, broadcast from a scalar, which read 0 ≤ toInt and
  toInt < 8.
-/
import proofs.«429594_j19748259627301_1_alg».proof.Pre_finite_inputs
import proofs.«429594_j19748259627301_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Cert.Pre_finite_inputs Cert.Pre_finite_inputs.Gen

/-- The result shape of a reduction over all axes has exactly one index. -/
private instance subsingleton_scalar_idx : Subsingleton S_.Idx := ⟨fun a b => funext fun d => d.elim0⟩

/-- The f32 word 0x7F800000 (exponent all ones, fraction zero, sign clear) denotes +∞. -/
private theorem inf_word : Ideal.ofBits .f32 0x7F800000#32 = (⊤ : EReal) := by
  simp [Ideal.ofBits, Ideal.ieee]

/-- An extended real whose absolute value max v (−v) lies strictly below +∞ is a real number: at ⊥ and at ⊤ the absolute
    value is ⊤, which is not below itself. -/
private theorem real_of_abs_lt (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | coe r => exact ⟨r, rfl⟩
  | top => simp [Ideal.cmp] at h

theorem of_pre (x : FVec Ideal S8192x1024 .f32) (idx : IVec S16384 32) (w : FVec Ideal S16384 .f32)
    (W1 W2 : FVec Ideal S8x1024x1024 .f32)
    (h : Cert.Pre_finite_inputs.fn (F := Ideal) x idx w W1 W2 = (fun _ => 1#1)) :
    (∀ i, ∃ r : ℝ, x i = (r : EReal)) ∧ (∀ j, ∃ r : ℝ, w j = (r : EReal))
      ∧ (∀ i, ∃ r : ℝ, W1 i = (r : EReal)) ∧ (∀ i, ∃ r : ℝ, W2 i = (r : EReal))
      ∧ (∀ j, 0 ≤ (idx j).toInt ∧ (idx j).toInt < 8) := by
  -- the predicate's one value, at the one index of its rank-0 result
  have e := congrFun h ValueIdx.ix0
  dsimp only [Cert.Pre_finite_inputs.fn, Cert.Pre_finite_inputs.fn_part1] at e
  -- a conjunction by "and" is 1 exactly when both sides are: the six all-reductions are each 1
  obtain ⟨e, hlt⟩ := IntOp.andi_eq_one.1 e
  obtain ⟨e, hge⟩ := IntOp.andi_eq_one.1 e
  obtain ⟨e, hW2⟩ := IntOp.andi_eq_one.1 e
  obtain ⟨e, hW1⟩ := IntOp.andi_eq_one.1 e
  obtain ⟨hx, hw⟩ := IntOp.andi_eq_one.1 e
  -- each all-reduction that is 1 had a 1 at every index; there the compared entry is |v| < +∞, or idx ≥ 0, or idx < 8
  refine ⟨fun i => ?_, fun j => ?_, fun i => ?_, fun i => ?_, fun j => ⟨?_, ?_⟩⟩
  · exact real_of_abs_lt (x i) (Host.reduce_andi_all _ _ _ _ _ hx i)
  · exact real_of_abs_lt (w j) (Host.reduce_andi_all _ _ _ _ _ hw j)
  · exact real_of_abs_lt (W1 i) (Host.reduce_andi_all _ _ _ _ _ hW1 i)
  · exact real_of_abs_lt (W2 i) (Host.reduce_andi_all _ _ _ _ _ hW2 i)
  · -- the broadcast scalar 0 reads 0 at j, and a signed "≥" that is 1 compares the two words' integer values
    have h0 : ((0#32 : BitVec 32)).toInt ≤ (idx j).toInt := IntOp.cmpi_sge.1 (Host.reduce_andi_all _ _ _ _ _ hge j)
    exact h0
  · -- the broadcast scalar 8 reads 8 at j, and a signed "<" that is 1 compares the two words' integer values
    have h8 : (idx j).toInt < ((8#32 : BitVec 32)).toInt := IntOp.cmpi_slt.1 (Host.reduce_andi_all _ _ _ _ _ hlt j)
    exact h8

end Cert.PreFacts

end
-- ==== Proof.lean ====
/-
  The certificate of a fused mixture-of-experts layer against its gather-based reference, over the extended reals.

  The kernel computes, for every token t and output unit p, all eight experts' outputs
      y_e[t, p] = max (∑ₒ max (∑_d x[t,d] · W1[e,o,d]) 0 · W2[e,p,o]) 0
  and adds them weighed by a dense coefficient matrix c[t, e] = ∑ₖ [idx[2t+k] = e] · w[2t+k] that its host code builds from a one-hot
  of the routing indices. The reference computes the same eight outputs, picks per routing slot the output of the expert the slot
  names (a gather along the expert axis) and adds the two picks weighed by the slots' weights. The statement's precondition says that
  every float input is finite and every routing index lies in [0, 8), the range of the expert axis the reference's gather indexes.
  Under it the index a slot holds names exactly one expert, the one-hot row of the slot is that expert's unit vector, every expert
  output is a real number, and distributing the products over the coefficient's two summands turns the kernel's sum over all experts
  into the reference's sum over the two slots (Proof/Law.lean). The pieces:
    Proof/Spec.lean        the two sums as functions of the argument arrays;
    Proof/KernelHost.lean  the arrays the kernel's launch finds: the inputs themselves and the dense coefficients;
    Proof/KernelBody.lean  the body's value at an index, over one block;
    Proof/KernelValue.lean the sixteen blocks tile the result: the kernel's run with its result named;
    Proof/RefExperts.lean, Proof/RefValue.lean  the reference's operations read at an index;
    Proof/PreFacts.lean    what the precondition says of the inputs;
    Proof/RefRunP.lean, Proof/RefReadP.lean     the reference's run and its read-at-an-index lemmas.
  The three frames are the generated ones (the reference's is its run with the result dropped); the ideal pass rewrote nothing, so
  `preserves` is trivial.
-/
import proofs.«429594_j19748259627301_1_alg».proof.Defs
import proofs.«429594_j19748259627301_1_alg».proof.Proof.Gen.Kernel
import proofs.«429594_j19748259627301_1_alg».proof.Proof.Gen.Kernel.Skeleton
import proofs.«429594_j19748259627301_1_alg».proof.Proof.Gen.Kernel.Launch
import proofs.«429594_j19748259627301_1_alg».proof.Proof.Gen.Kernel.Points
import proofs.«429594_j19748259627301_1_alg».proof.Proof.Gen.Kernel.Frame
import proofs.«429594_j19748259627301_1_alg».proof.Proof.Gen.KernelIdeal
import proofs.«429594_j19748259627301_1_alg».proof.Proof.Gen.KernelIdeal.Skeleton
import proofs.«429594_j19748259627301_1_alg».proof.Proof.Gen.KernelIdeal.Launch
import proofs.«429594_j19748259627301_1_alg».proof.Proof.Gen.KernelIdeal.Points
import proofs.«429594_j19748259627301_1_alg».proof.Proof.Gen.KernelIdeal.Frame
import proofs.«429594_j19748259627301_1_alg».proof.Proof.Gen.ReferenceIdeal
import proofs.«429594_j19748259627301_1_alg».proof.Proof.Gen.Pre_finite_inputs
import proofs.«429594_j19748259627301_1_alg».proof.Proof.Gen.KernelIdeal.Value
import proofs.«429594_j19748259627301_1_alg».proof.Proof.RefRunP
import proofs.«429594_j19748259627301_1_alg».proof.Proof.RefReadP
import proofs.«429594_j19748259627301_1_alg».proof.Proof.KernelValue
import proofs.«429594_j19748259627301_1_alg».proof.Proof.RefValue
import proofs.«429594_j19748259627301_1_alg».proof.Proof.Law
import proofs.«429594_j19748259627301_1_alg».proof.Proof.PreFacts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the result array at the kernel's sum over all experts of the argument arrays: the kernel by its run with
    the result named; the reference because its run's term is its last stage, that stage is the sum over the two routing slots, and
    under the precondition the two sums are one number at every (token, unit). -/
theorem algebraic : Cert.algebraic_KernelIdeal_ReferenceIdeal := by
  intro m ρ m' ρ' hpre hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.RunP.run (F := Ideal) m' ρ')
  obtain ⟨hx, hw, hW1, hW2, hidx⟩ := Cert.PreFacts.of_pre _ _ _ _ _ (hpre c)
  rw [(hagree c).1, (hagree c).2.1, (hagree c).2.2.1, (hagree c).2.2.2.1, (hagree c).2.2.2.2]
  refine (Cert.ReferenceIdeal.ReadP.val_main_v13_eq _ _ _ _ _).trans ?_
  rw [Cert.ReferenceIdeal.RefValue.val_main_v13_is _ _ _ _ _ hidx]
  funext i
  exact (Cert.MoE.kernelAt_eq_refAt _ _ _ _ _ hx hw hW1 hW2 hidx (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
